-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x10 : Shape := ⟨2, ![16, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x10 : S_.BroadcastsInDim S16x10 (![] : Fin 0 → Fin S16x10.rank)
  reducesTo_S16x10_S_d0_1 : S16x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S10 .f32) (main_v13 : IVec S_ 1) (main_v16 : IVec S16x10 1) : IVec S_ 1 :=
  let main_c_5 : IVec S_ 1 := constantI S_ 1 1#1
  let main_v17 : IVec S_ 1 := (fun x v => Host.reduce IntOp.andi x v reducesTo_S16x10_S_d0_1 h_S_) main_v16 main_c_5
  let main_v18 : IVec S_ 1 := andi main_v13 main_v17
  let main_v19 : FVec F S10 .f32 := Host.absf main_arg5
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x16 .f32) (main_arg3 : FVec F S16 .f32) (main_arg4 : FVec F S16x10 .f32) (main_arg5 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x10 .f32 := Host.absf main_arg4
  let main_cst_4 : FVec F S_ .f32 := constant S_ .f32 0x7F800000#32
  let main_v15 : FVec F S16x10 .f32 := broadcastInDim S16x10 ![] bcast_S_S16x10 main_cst_4
  let main_v16 : IVec S16x10 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x10 : Shape := ⟨2, ![16, 10]⟩
abbrev S10 : Shape := ⟨1, ![10]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x16 : Shape := ⟨2, ![100000, 16]⟩
abbrev S2000x128 : Shape := ⟨2, ![2000, 128]⟩
abbrev S2000x16 : Shape := ⟨2, ![2000, 16]⟩
abbrev S3200000x16 : Shape := ⟨2, ![3200000, 16]⟩
abbrev S2000x1 : Shape := ⟨2, ![2000, 1]⟩
abbrev S1x16 : Shape := ⟨2, ![1, 16]⟩
abbrev S100000x10 : Shape := ⟨2, ![100000, 10]⟩
abbrev S2000x10 : Shape := ⟨2, ![2000, 10]⟩
abbrev S3200000x10 : Shape := ⟨2, ![3200000, 10]⟩
abbrev S1x10 : Shape := ⟨2, ![1, 10]⟩
abbrev S2000 : Shape := ⟨1, ![2000]⟩

abbrev nBuf : Space → Nat
  | .hbm => 77
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x10, .f32⟩
  | .hbm, ⟨5, _⟩ => ⟨S10, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S_, .f32⟩
  | .hbm, ⟨11, _⟩ => ⟨S3200000, .f32⟩
  | .hbm, ⟨12, _⟩ => ⟨S_, .f32⟩
  | .hbm, ⟨13, _⟩ => ⟨S100000, .f32⟩
  | .hbm, ⟨14, _⟩ => ⟨S3200000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S_, .i32⟩
  | .hbm, ⟨23, _⟩ => ⟨S3200000, .i32⟩
  | .hbm, ⟨24, _⟩ => ⟨S3200000, .i1⟩
  | .hbm, ⟨25, _⟩ => ⟨S_, .i32⟩
  | .hbm, ⟨26, _⟩ => ⟨S3200000, .i32⟩
  | .hbm, ⟨27, _⟩ => ⟨S3200000, .i32⟩
  | .hbm, ⟨28, _⟩ => ⟨S3200000, .i32⟩
  | .hbm, ⟨29, _⟩ => ⟨S3200000x1, .i32⟩
  | .hbm, ⟨30, _⟩ => ⟨S3200000, .f32⟩
  | .hbm, ⟨31, _⟩ => ⟨S_, .i32⟩
  | .hbm, ⟨32, _⟩ => ⟨S3200000, .i32⟩
  | .hbm, ⟨33, _⟩ => ⟨S3200000, .i1⟩
  | .hbm, ⟨34, _⟩ => ⟨S_, .i32⟩
  | .hbm, ⟨35, _⟩ => ⟨S3200000, .i32⟩
  | .hbm, ⟨36, _⟩ => ⟨S3200000, .i32⟩
  | .hbm, ⟨37, _⟩ => ⟨S3200000, .i32⟩
  | .hbm, ⟨38, _⟩ => ⟨S3200000x1, .i32⟩
  | .hbm, ⟨39, _⟩ => ⟨S3200000, .f32⟩
  | .hbm, ⟨40, _⟩ => ⟨S3200000, .f32⟩
  | .hbm, ⟨41, _⟩ => ⟨S100000x16, .f32⟩
  | .hbm, ⟨42, _⟩ => ⟨S_, .i32⟩
  | .hbm, ⟨43, _⟩ => ⟨S3200000, .i32⟩
  | .hbm, ⟨44, _⟩ => ⟨S3200000, .i1⟩
  | .hbm, ⟨45, _⟩ => ⟨S_, .i32⟩
  | .hbm, ⟨46, _⟩ => ⟨S3200000, .i32⟩
  | .hbm, ⟨47, _⟩ => ⟨S3200000, .i32⟩
  | .hbm, ⟨48, _⟩ => ⟨S3200000, .i32⟩
  | .hbm, ⟨49, _⟩ => ⟨S3200000x1, .i32⟩
  | .hbm, ⟨50, _⟩ => ⟨S3200000x16, .f32⟩
  | .hbm, ⟨51, _⟩ => ⟨S3200000x1, .f32⟩
  | .hbm, ⟨52, _⟩ => ⟨S3200000x16, .f32⟩
  | .hbm, ⟨53, _⟩ => ⟨S3200000x16, .f32⟩
  | .hbm, ⟨54, _⟩ => ⟨S_, .f32⟩
  | .hbm, ⟨55, _⟩ => ⟨S100000x16, .f32⟩
  | .hbm, ⟨56, _⟩ => ⟨S3200000x1, .i32⟩
  | .hbm, ⟨57, _⟩ => ⟨S100000x16, .f32⟩
  | .hbm, ⟨58, _⟩ => ⟨S100000x16, .f32⟩
  | .hbm, ⟨59, _⟩ => ⟨S100000x10, .f32⟩
  | .hbm, ⟨60, _⟩ => ⟨S_, .i32⟩
  | .hbm, ⟨61, _⟩ => ⟨S3200000, .i32⟩
  | .hbm, ⟨62, _⟩ => ⟨S3200000, .i1⟩
  | .hbm, ⟨63, _⟩ => ⟨S_, .i32⟩
  | .hbm, ⟨64, _⟩ => ⟨S3200000, .i32⟩
  | .hbm, ⟨65, _⟩ => ⟨S3200000, .i32⟩
  | .hbm, ⟨66, _⟩ => ⟨S3200000, .i32⟩
  | .hbm, ⟨67, _⟩ => ⟨S3200000x1, .i32⟩
  | .hbm, ⟨68, _⟩ => ⟨S3200000x10, .f32⟩
  | .hbm, ⟨69, _⟩ => ⟨S3200000x1, .f32⟩
  | .hbm, ⟨70, _⟩ => ⟨S3200000x10, .f32⟩
  | .hbm, ⟨71, _⟩ => ⟨S3200000x10, .f32⟩
  | .hbm, ⟨72, _⟩ => ⟨S_, .f32⟩
  | .hbm, ⟨73, _⟩ => ⟨S100000x10, .f32⟩
  | .hbm, ⟨74, _⟩ => ⟨S3200000x1, .i32⟩
  | .hbm, ⟨75, _⟩ => ⟨S100000x10, .f32⟩
  | .hbm, ⟨76, _⟩ => ⟨S100000x10, .f32⟩
  | .local _ .vmem, ⟨0, _⟩ => ⟨S2000x128, .f32⟩
  | .local _ .vmem, ⟨1, _⟩ => ⟨S2000x128, .f32⟩
  | .local _ .vmem, ⟨2, _⟩ => ⟨S128x16, .f32⟩
  | .local _ .vmem, ⟨3, _⟩ => ⟨S2000x16, .f32⟩
  | .local _ .vmem, ⟨4, _⟩ => ⟨S2000x16, .f32⟩
  | .local _ .vmem, ⟨5, _⟩ => ⟨S2000x16, .f32⟩
  | .local _ .vmem, ⟨6, _⟩ => ⟨S2000x16, .f32⟩
  | .local _ .vmem, ⟨7, _⟩ => ⟨S2000x16, .f32⟩
  | .local _ .vmem, ⟨8, _⟩ => ⟨S2000x16, .f32⟩
  | .local _ .vmem, ⟨9, _⟩ => ⟨S2000x1, .f32⟩
  | .local _ .vmem, ⟨10, _⟩ => ⟨S2000x1, .f32⟩
  | .local _ .vmem, ⟨11, _⟩ => ⟨S16, .f32⟩
  | .local _ .vmem, ⟨12, _⟩ => ⟨S2000x16, .f32⟩
  | .local _ .vmem, ⟨13, _⟩ => ⟨S2000x16, .f32⟩
  | .local _ .vmem, ⟨14, _⟩ => ⟨S2000x16, .f32⟩
  | .local _ .vmem, ⟨15, _⟩ => ⟨S2000x16, .f32⟩
  | .local _ .vmem, ⟨16, _⟩ => ⟨S16x10, .f32⟩
  | .local _ .vmem, ⟨17, _⟩ => ⟨S2000x10, .f32⟩
  | .local _ .vmem, ⟨18, _⟩ => ⟨S2000x10, .f32⟩
  | .local _ .vmem, ⟨19, _⟩ => ⟨S2000x10, .f32⟩
  | .local _ .vmem, ⟨20, _⟩ => ⟨S2000x10, .f32⟩
  | .local _ .vmem, ⟨21, _⟩ => ⟨S2000x10, .f32⟩
  | .local _ .vmem, ⟨22, _⟩ => ⟨S2000x10, .f32⟩
  | .local _ .vmem, ⟨23, _⟩ => ⟨S2000x1, .f32⟩
  | .local _ .vmem, ⟨24, _⟩ => ⟨S2000x1, .f32⟩
  | .local _ .vmem, ⟨25, _⟩ => ⟨S10, .f32⟩
  | .local _ .vmem, ⟨26, _⟩ => ⟨S2000x10, .f32⟩
  | .local _ .vmem, ⟨27, _⟩ => ⟨S2000x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_8 : Ref sig .tc := ⟨.hbm, 60, rfl⟩
abbrev main_v44 : Ref sig .tc := ⟨.hbm, 61, rfl⟩
abbrev main_v45 : Ref sig .tc := ⟨.hbm, 62, rfl⟩
abbrev main_c_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x10 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x10 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x10 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x10 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x10 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  inb_S2000x128_S2000x128_0_0 : ∀ a, (![0, 0] : Fin 2 → Nat) a + S2000x128.size a ≤ S2000x128.size a
  h_S2000x128 : 0 < S2000x128.numel
  inb_S128x16_S128x16_0_0 : ∀ a, (![0, 0] : Fin 2 → Nat) a + S128x16.size a ≤ S128x16.size a
  h_S128x16 : 0 < S128x16.numel
  inb_S2000x16_S2000x16_0_0 : ∀ a, (![0, 0] : Fin 2 → Nat) a + S2000x16.size a ≤ S2000x16.size a
  h_S2000x16 : 0 < S2000x16.numel
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  shapeCasts_S2000x16_S2000x16 : S2000x16.ShapeCasts S2000x16
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x16 : S2000x1.Broadcasts S2000x16
  inb_S16_S16_0 : ∀ a, (![0] : Fin 1 → Nat) a + S16.size a ≤ S16.size a
  h_S16 : 0 < S16.numel
  shapeCasts_S16_S1x16 : S16.ShapeCasts S1x16
  broadcasts_S1x16_S2000x16 : S1x16.Broadcasts S2000x16
  inb_S16x10_S16x10_0_0 : ∀ a, (![0, 0] : Fin 2 → Nat) a + S16x10.size a ≤ S16x10.size a
  h_S16x10 : 0 < S16x10.numel
  inb_S2000x10_S2000x10_0_0 : ∀ a, (![0, 0] : Fin 2 → Nat) a + S2000x10.size a ≤ S2000x10.size a
  h_S2000x10 : 0 < S2000x10.numel
  bcast_S3200000x1_S3200000x10_0_1 : S3200000x1.BroadcastsInDim S3200000x10 (![0, 1] : Fin 2 → Fin S3200000x10.rank)
  bcast_S_S100000x10 : S_.BroadcastsInDim S100000x10 (![] : Fin 0 → Fin S100000x10.rank)
  shapeCasts_S2000x10_S2000x10 : S2000x10.ShapeCasts S2000x10
  broadcasts_S2000x1_S2000x10 : S2000x1.Broadcasts S2000x10
  inb_S10_S10_0 : ∀ a, (![0] : Fin 1 → Nat) a + S10.size a ≤ S10.size a
  h_S10 : 0 < S10.numel
  shapeCasts_S10_S1x10 : S10.ShapeCasts S1x10
  broadcasts_S1x10_S2000x10 : S1x10.Broadcasts S2000x10
  reduces_S2000x10_S2000 : S2000x10.Reduces [1] S2000
  shapeCasts_S2000_S2000x1 : S2000.ShapeCasts S2000x1
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S2000x128_S128x16_S2000x16_1_0_0_1_n_n_wf : DotDims.WF S2000x128 S128x16 S2000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S2000x16_S16x10_S2000x10_1_0_0_1_n_n_wf : DotDims.WF S2000x16 S16x10 S2000x10 [1] [0] [0] [1] [] []
  gather_S100000x10_S3200000x1_S3200000x10_1_0_n_n_0_1_110_wf : GatherDims.WF S100000x10 S3200000x1 S3200000x10 [1] [0] [] [0] [] 1 ![1, 10]
  scatter_S100000x10_S3200000x1_S3200000x10_1_0_0_1_wf : ScatterDims.WF S100000x10 S3200000x1 S3200000x10 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x16.size a ≤ S100000x16.size a
  hwx1_1 : ∀ i : grid1.Coords, EltTy.bits .f32 = 32 ∨ (Rect.block (s := S100000x16) S2000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16.size a ≤ S16.size a
  hwx1_3 : ∀ i : grid1.Coords, EltTy.bits .f32 = 32 ∨ (Rect.block (s := S16) S16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x16.size a ≤ S100000x16.size a
  hwx1_4 : ∀ i : grid1.Coords, EltTy.bits .f32 = 32 ∨ (Rect.block (s := S100000x16) S2000x16.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x16.size a ≤ S100000x16.size a
  hwx2_0 : ∀ i : grid2.Coords, EltTy.bits .f32 = 32 ∨ (Rect.block (s := S100000x16) S2000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x10.size a ≤ S16x10.size a
  hwx2_1 : ∀ i : grid2.Coords, EltTy.bits .f32 = 32 ∨ (Rect.block (s := S16x10) S16x10.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x10.size a ≤ S100000x10.size a
  hwx2_2 : ∀ i : grid2.Coords, EltTy.bits .f32 = 32 ∨ (Rect.block (s := S100000x10) S2000x10.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x10.size a ≤ S100000x10.size a
  hwx3_0 : ∀ i : grid3.Coords, EltTy.bits .f32 = 32 ∨ (Rect.block (s := S100000x10) S2000x10.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x10.size a ≤ S100000x10.size a
  hwx3_1 : ∀ i : grid3.Coords, EltTy.bits .f32 = 32 ∨ (Rect.block (s := S100000x10) S2000x10.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S10.size a ≤ S10.size a
  hwx3_3 : ∀ i : grid3.Coords, EltTy.bits .f32 = 32 ∨ (Rect.block (s := S10) S10.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x10.size a ≤ S100000x10.size a
  hwx3_4 : ∀ i : grid3.Coords, EltTy.bits .f32 = 32 ∨ (Rect.block (s := S100000x10) S2000x10.size (cc3_transform_4 i) (hinb3_4 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S2000x128_S128x16_S2000x16_1_0_0_1_n_n : DotDims S2000x128 S128x16 S2000x16 where
  lhsContracting := [1]
  rhsContracting := [0]
  lhsNonContracting := [0]
  rhsNonContracting := [1]
  lhsBatch := []
  rhsBatch := []
  wf := dot_S2000x128_S128x16_S2000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S2000x16_S16x10_S2000x10_1_0_0_1_n_n : DotDims S2000x16 S16x10 S2000x10 where
  lhsContracting := [1]
  rhsContracting := [0]
  lhsNonContracting := [0]
  rhsNonContracting := [1]
  lhsBatch := []
  rhsBatch := []
  wf := dot_S2000x16_S16x10_S2000x10_1_0_0_1_n_n_wf
def gather_S100000x10_S3200000x1_S3200000x10_1_0_n_n_0_1_110 : GatherDims S100000x10 S3200000x1 S3200000x10 where
  offsetDims := [1]
  collapsedSliceDims := [0]
  operandBatchingDims := []
  startIndicesBatchingDims := []
  startIndexMap := [0]
  indexVectorDim := 1
  sliceSizes := ![1, 10]
  wf := gather_S100000x10_S3200000x1_S3200000x10_1_0_n_n_0_1_110_wf
def scatter_S100000x10_S3200000x1_S3200000x10_1_0_0_1 : ScatterDims S100000x10 S3200000x1 S3200000x10 where
  updateWindowDims := [1]
  insertedWindowDims := [0]
  scatterDimsToOperandDims := [0]
  indexVectorDim := 1
  wf := scatter_S100000x10_S3200000x1_S3200000x10_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v28) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S2000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S2000x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v42) S2000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x10.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S2000x10.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v43) S2000x10.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v56) S2000x10.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg5) S10.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v57) S2000x10.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x10 : Shape := ⟨2, ![16, 10]⟩
abbrev S10 : Shape := ⟨1, ![10]⟩
abbrev S1x3200000 : Shape := ⟨2, ![1, 3200000]⟩
abbrev S3200000 : Shape := ⟨1, ![3200000]⟩
abbrev S100000x16 : Shape := ⟨2, ![100000, 16]⟩
abbrev S_ : Shape := ⟨0, ![]⟩
abbrev S100000 : Shape := ⟨1, ![100000]⟩
abbrev S3200000x1 : Shape := ⟨2, ![3200000, 1]⟩
abbrev S3200000x16 : Shape := ⟨2, ![3200000, 16]⟩
abbrev S100000x1 : Shape := ⟨2, ![100000, 1]⟩
abbrev S1x16 : Shape := ⟨2, ![1, 16]⟩
abbrev S100000x10 : Shape := ⟨2, ![100000, 10]⟩
abbrev S3200000x10 : Shape := ⟨2, ![3200000, 10]⟩
abbrev S1x10 : Shape := ⟨2, ![1, 10]⟩

abbrev nBuf : Space → Nat
  | .hbm => 135
  | .vmem => 0
  | .smem => 0
  | _ => 0

abbrev hbmTy0_0 (i : Nat) : BufTy := match i % 128 with
  | 0 => ⟨S100000x128, .f32⟩
  | 1 => ⟨S2x3200000, .i32⟩
  | 2 => ⟨S128x16, .f32⟩
  | 3 => ⟨S16, .f32⟩
  | 4 => ⟨S16x10, .f32⟩
  | 5 => ⟨S10, .f32⟩
  | 6 => ⟨S1x3200000, .i32⟩
  | 7 => ⟨S3200000, .i32⟩
  | 8 => ⟨S1x3200000, .i32⟩
  | 9 => ⟨S3200000, .i32⟩
  | 10 => ⟨S100000x16, .f32⟩
  | 11 => ⟨S_, .f32⟩
  | 12 => ⟨S3200000, .f32⟩
  | 13 => ⟨S_, .f32⟩
  | 14 => ⟨S100000, .f32⟩
  | 15 => ⟨S3200000x1, .i32⟩
  | 16 => ⟨S100000, .f32⟩
  | 17 => ⟨S_, .f32⟩
  | 18 => ⟨S100000, .f32⟩
  | 19 => ⟨S100000, .f32⟩
  | 20 => ⟨S100000, .f32⟩
  | 21 => ⟨S_, .i32⟩
  | 22 => ⟨S3200000, .i32⟩
  | 23 => ⟨S3200000, .i1⟩
  | 24 => ⟨S_, .i32⟩
  | 25 => ⟨S3200000, .i32⟩
  | 26 => ⟨S3200000, .i32⟩
  | 27 => ⟨S3200000, .i32⟩
  | 28 => ⟨S3200000x1, .i32⟩
  | 29 => ⟨S3200000, .f32⟩
  | 30 => ⟨S_, .i32⟩
  | 31 => ⟨S3200000, .i32⟩
  | 32 => ⟨S3200000, .i1⟩
  | 33 => ⟨S_, .i32⟩
  | 34 => ⟨S3200000, .i32⟩
  | 35 => ⟨S3200000, .i32⟩
  | 36 => ⟨S3200000, .i32⟩
  | 37 => ⟨S3200000x1, .i32⟩
  | 38 => ⟨S3200000, .f32⟩
  | 39 => ⟨S3200000, .f32⟩
  | 40 => ⟨S_, .i32⟩
  | 41 => ⟨S3200000, .i32⟩
  | 42 => ⟨S3200000, .i1⟩
  | 43 => ⟨S_, .i32⟩
  | 44 => ⟨S3200000, .i32⟩
  | 45 => ⟨S3200000, .i32⟩
  | 46 => ⟨S3200000, .i32⟩
  | 47 => ⟨S3200000x1, .i32⟩
  | 48 => ⟨S3200000x16, .f32⟩
  | 49 => ⟨S3200000x1, .f32⟩
  | 50 => ⟨S3200000x16, .f32⟩
  | 51 => ⟨S3200000x16, .f32⟩
  | 52 => ⟨S_, .f32⟩
  | 53 => ⟨S100000x16, .f32⟩
  | 54 => ⟨S3200000x1, .i32⟩
  | 55 => ⟨S100000x16, .f32⟩
  | 56 => ⟨S100000, .f32⟩
  | 57 => ⟨S100000x1, .f32⟩
  | 58 => ⟨S100000x16, .f32⟩
  | 59 => ⟨S100000x16, .f32⟩
  | 60 => ⟨S100000x16, .f32⟩
  | 61 => ⟨S1x16, .f32⟩
  | 62 => ⟨S100000x16, .f32⟩
  | 63 => ⟨S100000x16, .f32⟩
  | 64 => ⟨S_, .f32⟩
  | 65 => ⟨S100000x16, .f32⟩
  | 66 => ⟨S100000x16, .f32⟩
  | 67 => ⟨S100000x10, .f32⟩
  | 68 => ⟨S_, .f32⟩
  | 69 => ⟨S3200000, .f32⟩
  | 70 => ⟨S_, .f32⟩
  | 71 => ⟨S100000, .f32⟩
  | 72 => ⟨S3200000x1, .i32⟩
  | 73 => ⟨S100000, .f32⟩
  | 74 => ⟨S_, .f32⟩
  | 75 => ⟨S100000, .f32⟩
  | 76 => ⟨S100000, .f32⟩
  | 77 => ⟨S100000, .f32⟩
  | 78 => ⟨S_, .i32⟩
  | 79 => ⟨S3200000, .i32⟩
  | 80 => ⟨S3200000, .i1⟩
  | 81 => ⟨S_, .i32⟩
  | 82 => ⟨S3200000, .i32⟩
  | 83 => ⟨S3200000, .i32⟩
  | 84 => ⟨S3200000, .i32⟩
  | 85 => ⟨S3200000x1, .i32⟩
  | 86 => ⟨S3200000, .f32⟩
  | 87 => ⟨S_, .i32⟩
  | 88 => ⟨S3200000, .i32⟩
  | 89 => ⟨S3200000, .i1⟩
  | 90 => ⟨S_, .i32⟩
  | 91 => ⟨S3200000, .i32⟩
  | 92 => ⟨S3200000, .i32⟩
  | 93 => ⟨S3200000, .i32⟩
  | 94 => ⟨S3200000x1, .i32⟩
  | 95 => ⟨S3200000, .f32⟩
  | 96 => ⟨S3200000, .f32⟩
  | 97 => ⟨S_, .i32⟩
  | 98 => ⟨S3200000, .i32⟩
  | 99 => ⟨S3200000, .i1⟩
  | 100 => ⟨S_, .i32⟩
  | 101 => ⟨S3200000, .i32⟩
  | 102 => ⟨S3200000, .i32⟩
  | 103 => ⟨S3200000, .i32⟩
  | 104 => ⟨S3200000x1, .i32⟩
  | 105 => ⟨S3200000x10, .f32⟩
  | 106 => ⟨S3200000x1, .f32⟩
  | 107 => ⟨S3200000x10, .f32⟩
  | 108 => ⟨S3200000x10, .f32⟩
  | 109 => ⟨S_, .f32⟩
  | 110 => ⟨S100000x10, .f32⟩
  | 111 => ⟨S3200000x1, .i32⟩
  | 112 => ⟨S100000x10, .f32⟩
  | 113 => ⟨S100000, .f32⟩
  | 114 => ⟨S100000x1, .f32⟩
  | 115 => ⟨S100000x10, .f32⟩
  | 116 => ⟨S100000x10, .f32⟩
  | 117 => ⟨S100000x10, .f32⟩
  | 118 => ⟨S1x10, .f32⟩
  | 119 => ⟨S100000x10, .f32⟩
  | 120 => ⟨S100000x10, .f32⟩
  | 121 => ⟨S_, .f32⟩
  | 122 => ⟨S100000, .f32⟩
  | 123 => ⟨S_, .f32⟩
  | 124 => ⟨S100000, .f32⟩
  | 125 => ⟨S100000, .f32⟩
  | 126 => ⟨S100000x1, .f32⟩
  | 127 => ⟨S100000x10, .f32⟩
  | _ => ⟨S100000x128, .f32⟩

abbrev hbmTy0_1 (i : Nat) : BufTy := match i % 128 with
  | 0 => ⟨S100000x10, .f32⟩
  | 1 => ⟨S100000x10, .f32⟩
  | 2 => ⟨S_, .f32⟩
  | 3 => ⟨S100000, .f32⟩
  | 4 => ⟨S100000x1, .f32⟩
  | 5 => ⟨S100000x10, .f32⟩
  | 6 => ⟨S100000x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_v72 : Ref sig .tc := ⟨.hbm, 98, rfl⟩
abbrev main_v73 : Ref sig .tc := ⟨.hbm, 99, rfl⟩
abbrev main_c_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_17 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_cst_18 : Ref sig .tc := ⟨.hbm, 121, rfl⟩
abbrev main_v93 : Ref sig .tc := ⟨.hbm, 122, rfl⟩
abbrev main_cst_19 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_cst_20 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3200000x1_S3200000x10_0_1 : S3200000x1.BroadcastsInDim S3200000x10 (![0, 1] : Fin 2 → Fin S3200000x10.rank)
  bcast_S_S100000x10 : S_.BroadcastsInDim S100000x10 (![] : Fin 0 → Fin S100000x10.rank)
  bcast_S100000x1_S100000x10_0_1 : S100000x1.BroadcastsInDim S100000x10 (![0, 1] : Fin 2 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  reducesTo_S100000x10_S100000_d1 : S100000x10.ReducesTo [1] S100000
  h_S_ : 0 < S_.numel
  dot_S100000x128_S128x16_S100000x16_1_0_0_1_n_n_wf : DotDims.WF S100000x128 S128x16 S100000x16 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x10_S100000x10_1_0_0_1_n_n_wf : DotDims.WF S100000x16 S16x10 S100000x10 [1] [0] [0] [1] [] []
  gather_S100000x10_S3200000x1_S3200000x10_1_0_n_n_0_1_110_wf : GatherDims.WF S100000x10 S3200000x1 S3200000x10 [1] [0] [] [0] [] 1 ![1, 10]
  scatter_S100000x10_S3200000x1_S3200000x10_1_0_0_1_wf : ScatterDims.WF S100000x10 S3200000x1 S3200000x10 [1] [0] [0] 1

variable [Facts₀]

def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x10_S100000x10_1_0_0_1_n_n : DotDims S100000x16 S16x10 S100000x10 where
  lhsContracting := [1]
  rhsContracting := [0]
  lhsNonContracting := [0]
  rhsNonContracting := [1]
  lhsBatch := []
  rhsBatch := []
  wf := dot_S100000x16_S16x10_S100000x10_1_0_0_1_n_n_wf
def gather_S100000x10_S3200000x1_S3200000x10_1_0_n_n_0_1_110 : GatherDims S100000x10 S3200000x1 S3200000x10 where
  offsetDims := [1]
  collapsedSliceDims := [0]
  operandBatchingDims := []
  startIndicesBatchingDims := []
  startIndexMap := [0]
  indexVectorDim := 1
  sliceSizes := ![1, 10]
  wf := gather_S100000x10_S3200000x1_S3200000x10_1_0_n_n_0_1_110_wf
def scatter_S100000x10_S3200000x1_S3200000x10_1_0_0_1 : ScatterDims S100000x10 S3200000x1 S3200000x10 where
  updateWindowDims := [1]
  insertedWindowDims := [0]
  scatterDimsToOperandDims := [0]
  indexVectorDim := 1
  wf := scatter_S100000x10_S3200000x1_S3200000x10_1_0_0_1_wf

class Facts : Prop extends Facts₀ where

variable [Facts]
-- ==== Proof.Spec.lean ====
/-
  The two-layer graph convolution as whole-array functions, written with the reference program's own host
  operations but PARAMETRIC in the arrays each stage consumes, so that the tiled kernel's regions can be
  stated against them one stage at a time:

    dense1 x W      = x · W                                   (node features times the first weight)
    aggr16 h e      = Σ over edges (s → d) of  h[s] · coef(e)  scattered onto row d     (16 columns)
    layer1 h a q b  = max ((a + h · q[:, None]) + b[None, :], 0)
    dense2 a W      = a · W
    aggr10 h e      = the same edge aggregation on 10 columns
    layer2 h a q b  = row softmax of (a + h · q[:, None]) + b[None, :]

  where q is the squared inverse square root of the in-degree plus one and coef(e) the product of the two
  end points' inverse square roots. Each reference stage is, by unfolding its definition, one of these
  functions applied to earlier stages (the theorems named after the stage's buffer).
-/
import proofs.«429038_j39127152067222_3_alg».proof.Proof.Gen.ReferenceIdeal.Read

noncomputable section

namespace Cert.GcnSpec

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- Node features times the first layer's weight: a [100000, 128] by [128, 16] product. -/
def dense1 (x : (⟨S100000x128, .f32⟩ : BufTy).Contents (Elt F)) (w : (⟨S128x16, .f32⟩ : BufTy).Contents (Elt F)) :
    (⟨S100000x16, .f32⟩ : BufTy).Contents (Elt F) :=
  Host.dotGeneral dot_S100000x128_S128x16_S100000x16_1_0_0_1_n_n none x w

/-- Hidden features times the second layer's weight: a [100000, 16] by [16, 10] product. -/
def dense2 (a : (⟨S100000x16, .f32⟩ : BufTy).Contents (Elt F)) (w : (⟨S16x10, .f32⟩ : BufTy).Contents (Elt F)) :
    (⟨S100000x10, .f32⟩ : BufTy).Contents (Elt F) :=
  Host.dotGeneral dot_S100000x16_S16x10_S100000x10_1_0_0_1_n_n none a w

/-- The squared normalisation of every node: (deg + 1)^(-1/2) squared, deg the number of edges arriving. -/
def normSq (e : (⟨S2x3200000, .i32⟩ : BufTy).Contents (Elt F)) : (⟨S100000, .f32⟩ : BufTy).Contents (Elt F) :=
  val_main_v40 (F := F) e

/-- The first layer's edge aggregation: row s of h scaled by the edge's coefficient, added onto row d. -/
def aggr16 (h : (⟨S100000x16, .f32⟩ : BufTy).Contents (Elt F)) (e : (⟨S2x3200000, .i32⟩ : BufTy).Contents (Elt F)) :
    (⟨S100000x16, .f32⟩ : BufTy).Contents (Elt F) :=
  Host.scatterAdd scatter_S100000x16_S3200000x1_S3200000x16_1_0_0_1 (val_main_v37 (F := F)) (val_main_v38 (F := F) e)
    (mulf (Host.gather gather_S100000x16_S3200000x1_S3200000x16_1_0_n_n_0_1_116 h (val_main_v32 (F := F) e)) (val_main_v35 (F := F) e))

/-- The second layer's edge aggregation, on ten columns. -/
def aggr10 (h : (⟨S100000x10, .f32⟩ : BufTy).Contents (Elt F)) (e : (⟨S2x3200000, .i32⟩ : BufTy).Contents (Elt F)) :
    (⟨S100000x10, .f32⟩ : BufTy).Contents (Elt F) :=
  Host.scatterAdd scatter_S100000x10_S3200000x1_S3200000x10_1_0_0_1 (val_main_v82 (F := F)) (val_main_v83 (F := F) e)
    (mulf (Host.gather gather_S100000x10_S3200000x1_S3200000x10_1_0_n_n_0_1_110 h (val_main_v77 (F := F) e)) (val_main_v80 (F := F) e))

/-- The first layer's pre-activation: the aggregate plus the self-loop term h · q per row, plus the bias per column. -/
def pre1 (h agg : (⟨S100000x16, .f32⟩ : BufTy).Contents (Elt F)) (q : (⟨S100000, .f32⟩ : BufTy).Contents (Elt F))
    (b : (⟨S16, .f32⟩ : BufTy).Contents (Elt F)) : (⟨S100000x16, .f32⟩ : BufTy).Contents (Elt F) :=
  addf (addf agg (mulf h (broadcastInDim S100000x16 ![0, 1] bcast_S100000x1_S100000x16_0_1
      (broadcastInDim S100000x1 ![0] bcast_S100000_S100000x1_0 q))))
    (broadcastInDim S100000x16 ![0, 1] bcast_S1x16_S100000x16_0_1 (broadcastInDim S1x16 ![1] bcast_S16_S1x16_1 b))

/-- The first layer's output: the pre-activation clamped below at zero. -/
def layer1 (h agg : (⟨S100000x16, .f32⟩ : BufTy).Contents (Elt F)) (q : (⟨S100000, .f32⟩ : BufTy).Contents (Elt F))
    (b : (⟨S16, .f32⟩ : BufTy).Contents (Elt F)) : (⟨S100000x16, .f32⟩ : BufTy).Contents (Elt F) :=
  maximumf (pre1 h agg q b) (val_main_call0_v0 (F := F))

/-- The second layer's logits: aggregate plus self-loop term plus bias, on ten columns. -/
def pre2 (h agg : (⟨S100000x10, .f32⟩ : BufTy).Contents (Elt F)) (q : (⟨S100000, .f32⟩ : BufTy).Contents (Elt F))
    (b : (⟨S10, .f32⟩ : BufTy).Contents (Elt F)) : (⟨S100000x10, .f32⟩ : BufTy).Contents (Elt F) :=
  addf (addf agg (mulf h (broadcastInDim S100000x10 ![0, 1] bcast_S100000x1_S100000x10_0_1
      (broadcastInDim S100000x1 ![0] bcast_S100000_S100000x1_0 q))))
    (broadcastInDim S100000x10 ![0, 1] bcast_S1x10_S100000x10_0_1 (broadcastInDim S1x10 ![1] bcast_S10_S1x10_1 b))

/-- exp (z - max of z's row), the row maximum taken from minus infinity. -/
def expShift (z : (⟨S100000x10, .f32⟩ : BufTy).Contents (Elt F)) : (⟨S100000x10, .f32⟩ : BufTy).Contents (Elt F) :=
  Host.exp (subf z (broadcastInDim S100000x10 ![0, 1] bcast_S100000x1_S100000x10_0_1
    (broadcastInDim S100000x1 ![0] bcast_S100000_S100000x1_0
      (maximumf (val_main_v94 (F := F))
        (Host.reduce FloatOps.maximumf z (val_main_cst_18 (F := F)) reducesTo_S100000x10_S100000_d1 h_S_)))))

/-- The row softmax: every shifted exponential over its row's sum. -/
def softmaxRows (z : (⟨S100000x10, .f32⟩ : BufTy).Contents (Elt F)) : (⟨S100000x10, .f32⟩ : BufTy).Contents (Elt F) :=
  Host.divf (expShift z) (broadcastInDim S100000x10 ![0, 1] bcast_S100000x1_S100000x10_0_1
    (broadcastInDim S100000x1 ![0] bcast_S100000_S100000x1_0
      (Host.reduceAdd (expShift z) (val_main_cst_20 (F := F)) reducesTo_S100000x10_S100000_d1 h_S_)))

/-- The second layer's output: the row softmax of its logits. -/
def layer2 (h agg : (⟨S100000x10, .f32⟩ : BufTy).Contents (Elt F)) (q : (⟨S100000, .f32⟩ : BufTy).Contents (Elt F))
    (b : (⟨S10, .f32⟩ : BufTy).Contents (Elt F)) : (⟨S100000x10, .f32⟩ : BufTy).Contents (Elt F) :=
  softmaxRows (pre2 h agg q b)

/-! ## The reference's stages are these functions of earlier stages -/

variable (x0 : (⟨S100000x128, .f32⟩ : BufTy).Contents (Elt F)) (x1 : (⟨S2x3200000, .i32⟩ : BufTy).Contents (Elt F))
  (x2 : (⟨S128x16, .f32⟩ : BufTy).Contents (Elt F)) (x3 : (⟨S16, .f32⟩ : BufTy).Contents (Elt F))
  (x4 : (⟨S16x10, .f32⟩ : BufTy).Contents (Elt F)) (x5 : (⟨S10, .f32⟩ : BufTy).Contents (Elt F))

theorem v4_eq : val_main_v4 (F := F) x0 x2 = dense1 x0 x2 := rfl

theorem v39_eq : val_main_v39 (F := F) x0 x1 x2 = aggr16 (dense1 x0 x2) x1 := rfl

theorem v48_eq : val_main_v48 (F := F) x0 x1 x2 x3 = layer1 (dense1 x0 x2) (aggr16 (dense1 x0 x2) x1) (normSq x1) x3 := rfl

theorem v49_eq : val_main_v49 (F := F) x0 x1 x2 x3 x4 = dense2 (val_main_v48 (F := F) x0 x1 x2 x3) x4 := rfl

theorem v84_eq : val_main_v84 (F := F) x0 x1 x2 x3 x4 = aggr10 (val_main_v49 (F := F) x0 x1 x2 x3 x4) x1 := rfl

/-- The second layer recomputes the normalisation from the same edges: the same term. -/
theorem v85_eq : val_main_v85 (F := F) x1 = normSq x1 := rfl

theorem v103_eq : val_main_v103 (F := F) x0 x1 x2 x3 x4 x5
    = layer2 (val_main_v49 (F := F) x0 x1 x2 x3 x4) (aggr10 (val_main_v49 (F := F) x0 x1 x2 x3 x4) x1) (normSq x1) x5 := rfl

/-- The reference's result as the composition of the six stage functions. -/
theorem result_eq : val_main_v103 (F := F) x0 x1 x2 x3 x4 x5
    = layer2 (dense2 (layer1 (dense1 x0 x2) (aggr16 (dense1 x0 x2) x1) (normSq x1) x3) x4)
        (aggr10 (dense2 (layer1 (dense1 x0 x2) (aggr16 (dense1 x0 x2) x1) (normSq x1) x3) x4) x1) (normSq x1) x5 := by
  rw [v103_eq, v49_eq, v48_eq]

end Cert.GcnSpec

end
-- ==== Proof.LibMatProduct.lean ====
/-
  The row-by-column product of two matrices over the extended reals, as one function of the two arrays index by index,
  and the three places it is met: the host's dot_general at the plain dimension numbers (rows by contraction, times
  contraction by columns); a matrix unit's product accumulated into a zero splat; and a product of two BLOCKS (a band of
  rows of the left matrix, a band of columns of the right one), which is the corresponding block of the whole product
  because the contracted axis is not cut. Also: multiplying by a transposed matrix is contracting with its columns.
-/
import Idealize.ShloMosaic.Lib.StackMember
import Idealize.ShloMosaic.Lib.ValueLayout

noncomputable section

namespace Cert.Lib.MatProduct

open Idealize.ShloMosaic Idealize.ShloMosaic.ValueIdx

variable {M K N : Nat}

/-- (l r)[a, b] is the sum over k of l[a, k] r[k, b]. -/
def matProd (l : (⟨2, ![M, K]⟩ : Shape).Idx → EReal) (r : (⟨2, ![K, N]⟩ : Shape).Idx → EReal) :
    (⟨2, ![M, N]⟩ : Shape).Idx → EReal :=
  fun i => ∑ k : Fin K, l (ix2 ⟨(i 0).val, idx2_lt0 i⟩ k) * r (ix2 k ⟨(i 1).val, idx2_lt1 i⟩)

theorem matProd_ix2 (l : (⟨2, ![M, K]⟩ : Shape).Idx → EReal) (r : (⟨2, ![K, N]⟩ : Shape).Idx → EReal) (a : Fin M) (b : Fin N) :
    matProd l r (ix2 a b) = ∑ k : Fin K, l (ix2 a k) * r (ix2 k b) := rfl

/-- The host's plain dot_general, at the ideal values, is the product. -/
theorem dotGeneral_plain_eq {φ₁ φ₂ : FTy} (prec : Option ContractPrecision) (A : FVec Ideal ⟨2, ![M, K]⟩ φ₁)
    (B : FVec Ideal ⟨2, ![K, N]⟩ φ₂) : Host.dotGeneral (DotDims.plain M K N) prec A B = matProd A B := by
  funext i
  obtain ⟨a, b, rfl⟩ : ∃ (a : Fin M) (b : Fin N), i = ix2 a b := ⟨i 0, i 1, eq_ix2 i⟩
  rw [StackMember.dotGeneral_plain_apply, matProd_ix2]

/-- A matrix unit's plain product into the zero splat, at the ideal values, is the product. -/
theorem matmul_plain_zero_eq {φ₁ φ₂ : FTy} (prec : Option ContractPrecision) (A : FVec Ideal ⟨2, ![M, K]⟩ φ₁)
    (B : FVec Ideal ⟨2, ![K, N]⟩ φ₂) :
    matmul (DotDims.plain M K N) prec A B (constant ⟨2, ![M, N]⟩ .f32 0x00000000#32) = matProd A B := by
  rw [matmul_zero_eq_dotGeneral, dotGeneral_plain_eq]

/-- A band of rows times a band of columns is the block of the whole product: if the left block's row p is row a of l and
    the right block's column q is column b of r, entry (p, q) of the blocks' product is entry (a, b) of l r. -/
theorem matProd_block {M' N' : Nat} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (p : Fin M') (q : Fin N') (a : Fin M) (b : Fin N)
    (hl : ∀ k : Fin K, l' (ix2 p k) = l (ix2 a k)) (hr : ∀ k : Fin K, r' (ix2 k q) = r (ix2 k b)) :
    matProd l' r' (ix2 p q) = matProd l r (ix2 a b) := by
  rw [matProd_ix2, matProd_ix2]
  exact Finset.sum_congr rfl fun k _ => by rw [hl k, hr k]

/-- The same at any two indices: the blocks' product at j is the whole product at i as soon as row (j 0) of the left
    block is row (i 0) of l and column (j 1) of the right block is column (i 1) of r. -/
theorem matProd_block_idx {M' N' : Nat} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j : (⟨2, ![M', N']⟩ : Shape).Idx) (i : (⟨2, ![M, N]⟩ : Shape).Idx)
    (hl : ∀ k : Fin K, l' (ix2 ⟨(j 0).val, idx2_lt0 j⟩ k) = l (ix2 ⟨(i 0).val, idx2_lt0 i⟩ k))
    (hr : ∀ k : Fin K, r' (ix2 k ⟨(j 1).val, idx2_lt1 j⟩) = r (ix2 k ⟨(i 1).val, idx2_lt1 i⟩)) :
    matProd l' r' j = matProd l r i := by
  unfold matProd
  exact Finset.sum_congr rfl fun k _ => by rw [hl k, hr k]

/-- Two right factors that are each other's transposes entry by entry give the same product. -/
theorem matProd_congr_right (l : (⟨2, ![M, K]⟩ : Shape).Idx → EReal) (r r' : (⟨2, ![K, N]⟩ : Shape).Idx → EReal)
    (h : ∀ (k : Fin K) (b : Fin N), r (ix2 k b) = r' (ix2 k b)) : matProd l r = matProd l r' := by
  funext i
  obtain ⟨a, b, rfl⟩ : ∃ (a : Fin M) (b : Fin N), i = ix2 a b := ⟨i 0, i 1, eq_ix2 i⟩
  rw [matProd_ix2, matProd_ix2]
  exact Finset.sum_congr rfl fun k _ => by rw [h k b]

end Cert.Lib.MatProduct

end
-- ==== Proof.Region0.lean ====
import proofs.«429038_j39127152067222_3_alg».proof.Proof.Gen.KernelIdeal.Frame
import proofs.«429038_j39127152067222_3_alg».proof.Proof.Spec
import proofs.«429038_j39127152067222_3_alg».proof.Proof.LibMatProduct
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.KernelIdeal.Tiles

open Cert.KernelIdeal Cert.KernelIdeal.Gen

variable (V : (c : Dev nD) → (b : Ref sig .tc) → Buf (Elt Ideal) ((c : Thread nD τ).loc b))

/-!
  The first product, tile by tile. Point t of the grid multiplies rows 2000 t … 2000 t + 1999 of the node features by the
  WHOLE first weight (the contracted axis is not cut, and the weight's block is the whole matrix at every point), and
  writes the result back as rows 2000 t … 2000 t + 1999 of the output. A band of rows of a product is the product of that
  band of rows of the left factor with the right factor, so after the fifty points the output array is the product of
  the two matrices the region found, which is the reference's first dense stage.
-/

open Cert.Lib.MatProduct Idealize.ShloMosaic.ValueIdx

/-- The tile product's dimension numbers are the plain ones: rows by contraction, times contraction by columns. -/
theorem mm1_tile_dims : dot_S2000x128_S128x16_S2000x16_1_0_0_1_n_n = DotDims.plain 2000 128 16 := rfl

/-- So are the whole product's. -/
theorem mm1_whole_dims :
    Cert.ReferenceIdeal.dot_S100000x128_S128x16_S100000x16_1_0_0_1_n_n = DotDims.plain 100000 128 16 := rfl

/-- The body's value is the product of its two loaded blocks (accumulated into a zero tile). -/
theorem mm1_pay_eq (x0 : Vec Ideal S2000x128 .f32) (x1 : Vec Ideal S128x16 .f32) :
    k0_pay1 x0 x1 = matProd x0 x1 := by
  unfold k0_pay1
  rw [mm1_tile_dims]
  exact matmul_plain_zero_eq none x0 x1

/-- The reference's stage is the product of the two whole matrices. -/
theorem mm1_spec_eq (x : Vec Ideal S100000x128 .f32) (w : Vec Ideal S128x16 .f32) :
    Cert.GcnSpec.dense1 (F := Ideal) x w = matProd x w := by
  unfold Cert.GcnSpec.dense1
  rw [mm1_whole_dims]
  exact dotGeneral_plain_eq none x w

/-- The block indices at point t: the left factor's and the output's blocks are (t, 0), the right factor's (0, 0). -/
theorem mm1_index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The zero offsets of a whole-tile access, as the constant function. -/
theorem mm1_zero_offsets : (![0, 0] : Fin 2 → Nat) = fun _ => 0 := funext fun a => by fin_cases a <;> rfl

/-- Row p of the left block at point t is row 2000 t + p of the left matrix. -/
theorem mm1_lhs_block (c : Dev nD) (t : Fin cfg0.N) (y : S2000x128.Idx) (i : S100000x128.Idx)
    (h0 : (i 0).val = t.val * 2000 + (y 0).val) (h1 : (i 1).val = (y 1).val) :
    iblk0 V c 0 t y = V c main_arg0 i := by
  obtain ⟨e0, e1, -, -, -, -⟩ := mm1_index_maps t
  show V c main_arg0 (((cfg0.win 0).blk t).view.emb y) = V c main_arg0 i
  refine congrArg _ ?_
  funext a; apply Fin.ext
  match a with
  | ⟨0, _⟩ => show win0_0.index t (0 : Fin 2) * 2000 + 1 * (y 0).val = (i 0).val; rw [e0, h0]; omega
  | ⟨1, _⟩ => show win0_0.index t (1 : Fin 2) * 128 + 1 * (y 1).val = (i 1).val; rw [e1, h1]; omega

/-- The right block at every point is the whole right matrix. -/
theorem mm1_rhs_block (c : Dev nD) (t : Fin cfg0.N) (y : S128x16.Idx) :
    iblk0 V c 1 t y = V c main_arg2 y := by
  obtain ⟨-, -, e0, e1, -, -⟩ := mm1_index_maps t
  show V c main_arg2 (((cfg0.win 1).blk t).view.emb y) = V c main_arg2 y
  refine congrArg _ ?_
  funext a; apply Fin.ext
  match a with
  | ⟨0, _⟩ => show win0_1.index t (0 : Fin 2) * 128 + 1 * (y 0).val = (y 0).val; rw [e0]; omega
  | ⟨1, _⟩ => show win0_1.index t (1 : Fin 2) * 16 + 1 * (y 1).val = (y 1).val; rw [e1]; omega

/-- What point t writes back is block t of the product of the two matrices the region finds. -/
theorem mm1_flushed_eq (c : Dev nD) (t : Fin cfg0.N) :
    (dat0 (F := Ideal) V c).flushed 2 t
      = ((cfg0.win 2).blk t).view.read (Elt Ideal) (matProd (V c main_arg0) (V c main_arg2)) := by
  show (cfg0.win 2).cut (grid0.coords t) ((dat0 V c).after 2 t) = _
  rw [after0_2]
  unfold out0_2
  rw [View.canon_unit_zero mm1_zero_offsets]
  simp only [View.ld_unit_zero (S := S2000x128) mm1_zero_offsets, View.ld_unit_zero (S := S128x16) mm1_zero_offsets]
  rw [mm1_pay_eq]
  obtain ⟨-, -, -, -, e0, e1⟩ := mm1_index_maps t
  funext j
  show matProd (iblk0 V c 0 t) (iblk0 V c 1 t) j
    = matProd (V c main_arg0) (V c main_arg2) (((cfg0.win 2).blk t).view.emb j)
  have r0 : ((((cfg0.win 2).blk t).view.emb j) 0).val = t.val * 2000 + (j 0).val := by
    show win0_2.index t (0 : Fin 2) * 2000 + 1 * (j 0).val = _; rw [e0]; omega
  have r1 : ((((cfg0.win 2).blk t).view.emb j) 1).val = (j 1).val := by
    show win0_2.index t (1 : Fin 2) * 16 + 1 * (j 1).val = _; rw [e1]; omega
  refine matProd_block_idx _ _ _ _ j _ (fun k => ?_) (fun k => ?_)
  · exact mm1_lhs_block V c t _ _ r0 rfl
  · refine (mm1_rhs_block V c t _).trans (congrArg _ ?_)
    funext a; apply Fin.ext
    match a with
    | ⟨0, _⟩ => rfl
    | ⟨1, _⟩ => exact r1.symm

/-- An index of the product lies in point t's block iff each coordinate is in the block's range on its axis. -/
theorem mm1_mem_blk (t : Fin cfg0.N) (i : S100000x16.Idx) :
    i ∈ ((cfg0.win 2).blk t).view.set ↔ ∀ a : Fin 2, win0_2.index t a * S2000x16.size a ≤ (i a).val
      ∧ (i a).val < win0_2.index t a * S2000x16.size a + S2000x16.size a := by
  show i ∈ ((View.whole main_v28).slice (win0_2.rect t)).set ↔ _
  rw [View.set_slice_whole, Rect.mem_set_unit]
  exact Iff.rfl

/-- Row r of the product lies in the block of point r / 2000. -/
theorem mm1_cover (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have ht : (i 0).val / 2000 < 50 := by omega
  refine ⟨⟨(i 0).val / 2000, ht⟩, flush0_2 _, ?_⟩
  rw [mm1_mem_blk]
  obtain ⟨-, -, -, -, e0, e1⟩ := mm1_index_maps ⟨(i 0).val / 2000, ht⟩
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_2.index ⟨(i 0).val / 2000, ht⟩ (1 : Fin 2) * 16 ≤ (i 1).val
      ∧ (i 1).val < win0_2.index ⟨(i 0).val / 2000, ht⟩ (1 : Fin 2) * 16 + 16
    rw [e1]; omega

/-- After the region the output array is the product of the feature matrix and the first weight. -/
theorem region0_value (c : Dev nD) (x : Vec Ideal S100000x128 .f32) (w : Vec Ideal S128x16 .f32)
    (hx : V c main_arg0 = x) (hw : V c main_arg2 = w) :
    (dat0 (F := Ideal) V c).arrAt 2 cfg0.N = Cert.GcnSpec.dense1 (F := Ideal) x w := by
  rw [mm1_spec_eq, ← hx, ← hw]
  exact (dat0 (F := Ideal) V c).arrAt_eq_of_cover 2 _ (fun t _ => mm1_flushed_eq V c t) mm1_cover

end Cert.KernelIdeal.Tiles

end
-- ==== Proof.Region1.lean ====
import proofs.«429038_j39127152067222_3_alg».proof.Proof.Gen.KernelIdeal.Frame
import proofs.«429038_j39127152067222_3_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.KernelIdeal.Tiles

open Cert.KernelIdeal Cert.KernelIdeal.Gen

variable (V : (c : Dev nD) → (b : Ref sig .tc) → Buf (Elt Ideal) ((c : Thread nD τ).loc b))

open Idealize.ShloMosaic.ValueIdx

/-! ## Layout operations of the tile, read at an index -/

/-- A [2000, 1] column stretched along the 16 columns reads the column at the row. -/
theorem ep1_column_stretched (x : Vec Ideal S2000x1 .f32) (hb : S2000x1.Broadcasts S2000x16) (p : Fin 2000) (k : Fin 16) :
    broadcastTo S2000x16 x hb (ix2 p k) = x (ix2 p (0 : Fin 1)) :=
  broadcastTo_apply x hb (ix2 p k) (ix2 p (0 : Fin 1)) (fun a => match a with
    | ⟨0, _⟩ => by show p.val = if (2000 : Nat) = 1 then 0 else p.val; rw [if_neg (by decide)]
    | ⟨1, _⟩ => by show 0 = if (1 : Nat) = 1 then 0 else k.val; rw [if_pos rfl])

/-- A [1, 16] row stretched along the 2000 rows reads the row at the column. -/
theorem ep1_row_stretched (x : Vec Ideal S1x16 .f32) (hb : S1x16.Broadcasts S2000x16) (p : Fin 2000) (k : Fin 16) :
    broadcastTo S2000x16 x hb (ix2 p k) = x (ix2 (0 : Fin 1) k) :=
  broadcastTo_apply x hb (ix2 p k) (ix2 (0 : Fin 1) k) (fun a => match a with
    | ⟨0, _⟩ => by show 0 = if (1 : Nat) = 1 then 0 else p.val; rw [if_pos rfl]
    | ⟨1, _⟩ => by show k.val = if (16 : Nat) = 1 then 0 else k.val; rw [if_neg (by decide)])

/-- A [16] vector viewed as a [1, 16] row keeps its entries. -/
theorem ep1_vector_as_row (x : Vec Ideal S16 .f32) (hc : S16.ShapeCasts S1x16) (k : Fin 16) :
    shapeCast S1x16 x hc (ix2 (0 : Fin 1) k) = x (ix1 k) :=
  shapeCast_apply x hc (ix2 (0 : Fin 1) k) (ix1 k) (by
    rw [Shape.rowMajor_val_two, Shape.rowMajor_val_one]; show k.val = 0 * 16 + k.val; omega)

/-! ## The whole-array function's two stretched operands, read at an index -/

/-- The per-node factor, first made a column and then stretched along the columns, reads the factor of the row. -/
theorem ep1_spec_factor (q : Vec Ideal S100000 .f32) (h1 : S100000.BroadcastsInDim S100000x1 ![0])
    (h2 : S100000x1.BroadcastsInDim S100000x16 ![0, 1]) (r : Fin 100000) (k : Fin 16) :
    broadcastInDim S100000x16 ![0, 1] h2 (broadcastInDim S100000x1 ![0] h1 q) (ix2 r k) = q (ix1 r) :=
  (broadcastInDim_apply ![0, 1] h2 _ (ix2 r k) (ix2 r (0 : Fin 1)) (fun a => match a with
    | ⟨0, _⟩ => by show r.val = if (100000 : Nat) = 1 then 0 else r.val; rw [if_neg (by decide)]
    | ⟨1, _⟩ => by show 0 = if (1 : Nat) = 1 then 0 else k.val; rw [if_pos rfl])).trans
  (broadcastInDim_apply ![0] h1 q (ix2 r (0 : Fin 1)) (ix1 r) (fun a => match a with
    | ⟨0, _⟩ => by show r.val = if (100000 : Nat) = 1 then 0 else r.val; rw [if_neg (by decide)]))

/-- The bias, first made a row and then stretched along the rows, reads the bias of the column. -/
theorem ep1_spec_bias (b : Vec Ideal S16 .f32) (h1 : S16.BroadcastsInDim S1x16 ![1])
    (h2 : S1x16.BroadcastsInDim S100000x16 ![0, 1]) (r : Fin 100000) (k : Fin 16) :
    broadcastInDim S100000x16 ![0, 1] h2 (broadcastInDim S1x16 ![1] h1 b) (ix2 r k) = b (ix1 k) :=
  (broadcastInDim_apply ![0, 1] h2 _ (ix2 r k) (ix2 (0 : Fin 1) k) (fun a => match a with
    | ⟨0, _⟩ => by show 0 = if (1 : Nat) = 1 then 0 else r.val; rw [if_pos rfl]
    | ⟨1, _⟩ => by show k.val = if (16 : Nat) = 1 then 0 else k.val; rw [if_neg (by decide)])).trans
  (broadcastInDim_apply ![1] h1 b (ix2 (0 : Fin 1) k) (ix1 k) (fun a => match a with
    | ⟨0, _⟩ => by show k.val = if (16 : Nat) = 1 then 0 else k.val; rw [if_neg (by decide)]))

/-! ## The tile's arithmetic is the whole-array function's, entry by entry -/

/-- Entry (p, k) of the tile the body stores is entry (r, k) of the first layer's output, when the loaded blocks'
    entries there are the arrays' entries at row r: both are max ((agg + h · q) + b, 0) of the same four numbers. -/
theorem ep1_payload_eq_layer1 (x0 x1 : Vec Ideal S2000x16 .f32) (x2 : Vec Ideal S2000x1 .f32) (x3 : Vec Ideal S16 .f32)
    (h agg : Vec Ideal S100000x16 .f32) (q : Vec Ideal S100000 .f32) (b : Vec Ideal S16 .f32)
    (p : Fin 2000) (k : Fin 16) (r : Fin 100000)
    (e0 : x0 (ix2 p k) = h (ix2 r k)) (e1 : x1 (ix2 p k) = agg (ix2 r k))
    (e2 : x2 (ix2 p (0 : Fin 1)) = q (ix1 r)) (e3 : x3 (ix1 k) = b (ix1 k)) :
    k1_pay1 x0 x2 x1 x3 (ix2 p k) = Cert.GcnSpec.layer1 (F := Ideal) h agg q b (ix2 r k) := by
  have hH : shapeCast S2000x16 x0 shapeCasts_S2000x16_S2000x16 (ix2 p k) = h (ix2 r k) :=
    (congrFun (shapeCast_self x0 _) _).trans e0
  have hA : shapeCast S2000x16 x1 shapeCasts_S2000x16_S2000x16 (ix2 p k) = agg (ix2 r k) :=
    (congrFun (shapeCast_self x1 _) _).trans e1
  have hQ : ∀ (h1 : S100000.BroadcastsInDim S100000x1 ![0]) (h2 : S100000x1.BroadcastsInDim S100000x16 ![0, 1]),
      broadcastTo S2000x16 (shapeCast S2000x1 x2 shapeCasts_S2000x1_S2000x1) broadcasts_S2000x1_S2000x16 (ix2 p k)
        = broadcastInDim S100000x16 ![0, 1] h2 (broadcastInDim S100000x1 ![0] h1 q) (ix2 r k) := fun h1 h2 =>
    ((ep1_column_stretched _ _ p k).trans ((congrFun (shapeCast_self x2 _) _).trans e2)).trans
      (ep1_spec_factor q h1 h2 r k).symm
  have hB : ∀ (h1 : S16.BroadcastsInDim S1x16 ![1]) (h2 : S1x16.BroadcastsInDim S100000x16 ![0, 1]),
      broadcastTo S2000x16 (shapeCast S1x16 x3 shapeCasts_S16_S1x16) broadcasts_S1x16_S2000x16 (ix2 p k)
        = broadcastInDim S100000x16 ![0, 1] h2 (broadcastInDim S1x16 ![1] h1 b) (ix2 r k) := fun h1 h2 =>
    ((ep1_row_stretched _ _ p k).trans ((ep1_vector_as_row x3 _ k).trans e3)).trans
      (ep1_spec_bias b h1 h2 r k).symm
  unfold k1_pay1 Cert.GcnSpec.layer1 Cert.GcnSpec.pre1
  exact congrArg₂ max (congrArg₂ (· + ·) (congrArg₂ (· + ·) hA (congrArg₂ (· * ·) hH (hQ _ _))) (hB _ _)) rfl

/-! ## From the tiles to the array -/

theorem ep1_zero2 : (![0, 0] : Fin 2 → Nat) = fun _ => 0 := funext fun a => by fin_cases a <;> rfl
theorem ep1_zero1 : (![0] : Fin 1 → Nat) = fun _ => 0 := funext fun a => by fin_cases a; rfl

/-- The printed index maps, decided once over the 50 points: the four row-tiled windows sit at row block t and
    column block 0; the bias window sits at block 0 at every point. -/
theorem ep1_index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- What point t writes back is tile t of the first layer's output: rows 2000 t … 2000 t + 1999. -/
theorem ep1_flushed_eq (c : Dev nD) (h agg : Vec Ideal S100000x16 .f32) (qcol : Vec Ideal S100000x1 .f32) (b : Vec Ideal S16 .f32)
    (q : Vec Ideal S100000 .f32)
    (hh : V c main_v28 = h) (hagg : V c main_v41 = agg) (hqc : V c main_v12 = qcol) (hb : V c main_arg3 = b)
    (hq : ∀ (i : S100000x1.Idx) (j : S100000.Idx), (j 0).val = (i 0).val → qcol i = q j) (t : Fin cfg1.N) :
    (dat1 (F := Ideal) V c).flushed 4 t
      = ((cfg1.win 4).blk t).view.read (Elt Ideal) (Cert.GcnSpec.layer1 (F := Ideal) h agg q b) := by
  show (cfg1.win 4).cut (grid1.coords t) ((dat1 V c).after 4 t) = _
  rw [after1_4]
  unfold out1_4
  rw [View.canon_unit_zero ep1_zero2]
  simp only [View.ld_unit_zero (S := S2000x16) ep1_zero2, View.ld_unit_zero (S := S2000x1) ep1_zero2,
    View.ld_unit_zero (S := S16) ep1_zero1]
  obtain ⟨f00, f01, f10, f11, f20, f21, f30, f40, f41⟩ := ep1_index_facts t
  have ht : t.val < 50 := t.isLt
  funext j
  obtain ⟨p, k, rfl⟩ : ∃ (p : Fin 2000) (k : Fin 16), j = ix2 p k := ⟨j 0, j 1, eq_ix2 j⟩
  have hp : p.val < 2000 := p.isLt
  show k1_pay1 (iblk1 V c 0 t) (iblk1 V c 2 t) (iblk1 V c 1 t) (iblk1 V c 3 t) (ix2 p k)
      = Cert.GcnSpec.layer1 (F := Ideal) h agg q b (((cfg1.win 4).blk t).view.emb (ix2 p k))
  have hemb : ((cfg1.win 4).blk t).view.emb (ix2 p k) = ix2 (⟨2000 * t.val + p.val, by omega⟩ : Fin 100000) k := by
    funext a; apply Fin.ext
    match a with
    | ⟨0, _⟩ => show win1_4.index t (0 : Fin 2) * 2000 + 1 * p.val = 2000 * t.val + p.val; omega
    | ⟨1, _⟩ => show win1_4.index t (1 : Fin 2) * 16 + 1 * k.val = k.val; omega
  rw [hemb]
  refine ep1_payload_eq_layer1 _ _ _ _ h agg q b p k _ ?_ ?_ ?_ ?_
  · show V c main_v28 (((cfg1.win 0).blk t).view.emb (ix2 p k)) = h (ix2 (⟨2000 * t.val + p.val, _⟩ : Fin 100000) k)
    rw [hh]; refine congrArg h ?_
    funext a; apply Fin.ext
    match a with
    | ⟨0, _⟩ => show win1_0.index t (0 : Fin 2) * 2000 + 1 * p.val = 2000 * t.val + p.val; omega
    | ⟨1, _⟩ => show win1_0.index t (1 : Fin 2) * 16 + 1 * k.val = k.val; omega
  · show V c main_v41 (((cfg1.win 1).blk t).view.emb (ix2 p k)) = agg (ix2 (⟨2000 * t.val + p.val, _⟩ : Fin 100000) k)
    rw [hagg]; refine congrArg agg ?_
    funext a; apply Fin.ext
    match a with
    | ⟨0, _⟩ => show win1_1.index t (0 : Fin 2) * 2000 + 1 * p.val = 2000 * t.val + p.val; omega
    | ⟨1, _⟩ => show win1_1.index t (1 : Fin 2) * 16 + 1 * k.val = k.val; omega
  · show V c main_v12 (((cfg1.win 2).blk t).view.emb (ix2 p (0 : Fin 1))) = q (ix1 (⟨2000 * t.val + p.val, _⟩ : Fin 100000))
    rw [hqc]; refine hq _ _ ?_
    show 2000 * t.val + p.val = win1_2.index t (0 : Fin 2) * 2000 + 1 * p.val; omega
  · show V c main_arg3 (((cfg1.win 3).blk t).view.emb (ix1 k)) = b (ix1 k)
    rw [hb]; refine congrArg b ?_
    funext a; apply Fin.ext
    match a with
    | ⟨0, _⟩ => show win1_3.index t (0 : Fin 1) * 16 + 1 * k.val = k.val; omega

/-- An index of the array is in point t's tile iff each coordinate is in the tile's range on its axis. -/
theorem ep1_mem_tile (t : Fin cfg1.N) (i : S100000x16.Idx) :
    i ∈ ((cfg1.win 4).blk t).view.set ↔ ∀ a : Fin 2, win1_4.index t a * S2000x16.size a ≤ (i a).val
      ∧ (i a).val < win1_4.index t a * S2000x16.size a + S2000x16.size a := by
  show i ∈ ((View.whole main_v42).slice (win1_4.rect t)).set ↔ _
  rw [View.set_slice_whole, Rect.mem_set_unit]
  exact Iff.rfl

/-- Row r of the array lies in the tile of point r / 2000, and every point writes its tile back. -/
theorem ep1_cover (i : S100000x16.Idx) :
    ∃ t : Fin cfg1.N, (cfg1.win 4).flush t = true ∧ i ∈ ((cfg1.win 4).blk t).view.set := by
  have hi0 : (i 0).val < 100000 := (i 0).isLt
  have hi1 : (i 1).val < 16 := (i 1).isLt
  obtain ⟨t, ht⟩ : ∃ t : Fin cfg1.N, t.val = (i 0).val / 2000 :=
    ⟨⟨(i 0).val / 2000, by show (i 0).val / 2000 < 50; omega⟩, rfl⟩
  obtain ⟨-, -, -, -, -, -, -, f40, f41⟩ := ep1_index_facts t
  refine ⟨t, flush1_4 t, ?_⟩
  rw [ep1_mem_tile]
  intro a
  match a with
  | ⟨0, _⟩ =>
    show win1_4.index t (0 : Fin 2) * 2000 ≤ (i 0).val ∧ (i 0).val < win1_4.index t (0 : Fin 2) * 2000 + 2000
    omega
  | ⟨1, _⟩ =>
    show win1_4.index t (1 : Fin 2) * 16 ≤ (i 1).val ∧ (i 1).val < win1_4.index t (1 : Fin 2) * 16 + 16
    omega

/-- Region 1 leaves in its output array the first layer's output of the arrays it found: the per-node factor read
    through its column form, the bias whole at every point. -/
theorem region1_value (c : Dev nD) (h agg : Vec Ideal S100000x16 .f32) (qcol : Vec Ideal S100000x1 .f32) (b : Vec Ideal S16 .f32)
    (q : Vec Ideal S100000 .f32)
    (hh : V c main_v28 = h) (hagg : V c main_v41 = agg) (hqc : V c main_v12 = qcol) (hb : V c main_arg3 = b)
    (hq : ∀ (i : S100000x1.Idx) (j : S100000.Idx), (j 0).val = (i 0).val → qcol i = q j) :
    (dat1 (F := Ideal) V c).arrAt 4 cfg1.N = Cert.GcnSpec.layer1 (F := Ideal) h agg q b :=
  (dat1 (F := Ideal) V c).arrAt_eq_of_cover 4 (Cert.GcnSpec.layer1 (F := Ideal) h agg q b)
    (fun t _ => ep1_flushed_eq V c h agg qcol b q hh hagg hqc hb hq t) ep1_cover

end Cert.KernelIdeal.Tiles

end
-- ==== Proof.Region2.lean ====
import proofs.«429038_j39127152067222_3_alg».proof.Proof.Gen.KernelIdeal.Frame
import proofs.«429038_j39127152067222_3_alg».proof.Proof.Spec
import proofs.«429038_j39127152067222_3_alg».proof.Proof.LibMatProduct
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.KernelIdeal.Tiles

open Cert.KernelIdeal Cert.KernelIdeal.Gen

variable (V : (c : Dev nD) → (b : Ref sig .tc) → Buf (Elt Ideal) ((c : Thread nD τ).loc b))

/-!
  The second product, tile by tile. Point t of the grid multiplies rows 2000 t … 2000 t + 1999 of the hidden features by
  the WHOLE second weight (the contracted axis is not cut, and the weight's block is the whole matrix at every point),
  and writes the result back as rows 2000 t … 2000 t + 1999 of the output. A band of rows of a product is the product of
  that band of rows of the left factor with the right factor, so after the fifty points the output array is the product
  of the two matrices the region found, which is the reference's second dense stage.
-/

open Cert.Lib.MatProduct Idealize.ShloMosaic.ValueIdx

/-- The tile product's dimension numbers are the plain ones: rows by contraction, times contraction by columns. -/
theorem mm2_tile_dims : dot_S2000x16_S16x10_S2000x10_1_0_0_1_n_n = DotDims.plain 2000 16 10 := rfl

/-- So are the whole product's. -/
theorem mm2_whole_dims :
    Cert.ReferenceIdeal.dot_S100000x16_S16x10_S100000x10_1_0_0_1_n_n = DotDims.plain 100000 16 10 := rfl

/-- The body's value is the product of its two loaded blocks (accumulated into a zero tile); the reshape of the left
    block to its own shape changes nothing. -/
theorem mm2_pay_eq (x0 : Vec Ideal S2000x16 .f32) (x1 : Vec Ideal S16x10 .f32) :
    k2_pay1 x0 x1 = matProd x0 x1 := by
  unfold k2_pay1
  rw [shapeCast_self, mm2_tile_dims]
  exact matmul_plain_zero_eq none x0 x1

/-- The reference's stage is the product of the two whole matrices. -/
theorem mm2_spec_eq (a : Vec Ideal S100000x16 .f32) (w : Vec Ideal S16x10 .f32) :
    Cert.GcnSpec.dense2 (F := Ideal) a w = matProd a w := by
  unfold Cert.GcnSpec.dense2
  rw [mm2_whole_dims]
  exact dotGeneral_plain_eq none a w

/-- The block indices at point t: the left factor's and the output's blocks are (t, 0), the right factor's (0, 0). -/
theorem mm2_index_maps : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The zero offsets of a whole-tile access, as the constant function. -/
theorem mm2_zero_offsets : (![0, 0] : Fin 2 → Nat) = fun _ => 0 := funext fun a => by fin_cases a <;> rfl

/-- Row p of the left block at point t is row 2000 t + p of the left matrix. -/
theorem mm2_lhs_block (c : Dev nD) (t : Fin cfg2.N) (y : S2000x16.Idx) (i : S100000x16.Idx)
    (h0 : (i 0).val = t.val * 2000 + (y 0).val) (h1 : (i 1).val = (y 1).val) :
    iblk2 V c 0 t y = V c main_v42 i := by
  obtain ⟨e0, e1, -, -, -, -⟩ := mm2_index_maps t
  show V c main_v42 (((cfg2.win 0).blk t).view.emb y) = V c main_v42 i
  refine congrArg _ ?_
  funext a; apply Fin.ext
  match a with
  | ⟨0, _⟩ => show win2_0.index t (0 : Fin 2) * 2000 + 1 * (y 0).val = (i 0).val; rw [e0, h0]; omega
  | ⟨1, _⟩ => show win2_0.index t (1 : Fin 2) * 16 + 1 * (y 1).val = (i 1).val; rw [e1, h1]; omega

/-- The right block at every point is the whole right matrix. -/
theorem mm2_rhs_block (c : Dev nD) (t : Fin cfg2.N) (y : S16x10.Idx) :
    iblk2 V c 1 t y = V c main_arg4 y := by
  obtain ⟨-, -, e0, e1, -, -⟩ := mm2_index_maps t
  show V c main_arg4 (((cfg2.win 1).blk t).view.emb y) = V c main_arg4 y
  refine congrArg _ ?_
  funext a; apply Fin.ext
  match a with
  | ⟨0, _⟩ => show win2_1.index t (0 : Fin 2) * 16 + 1 * (y 0).val = (y 0).val; rw [e0]; omega
  | ⟨1, _⟩ => show win2_1.index t (1 : Fin 2) * 10 + 1 * (y 1).val = (y 1).val; rw [e1]; omega

/-- What point t writes back is block t of the product of the two matrices the region finds. -/
theorem mm2_flushed_eq (c : Dev nD) (t : Fin cfg2.N) :
    (dat2 (F := Ideal) V c).flushed 2 t
      = ((cfg2.win 2).blk t).view.read (Elt Ideal) (matProd (V c main_v42) (V c main_arg4)) := by
  show (cfg2.win 2).cut (grid2.coords t) ((dat2 V c).after 2 t) = _
  rw [after2_2]
  unfold out2_2
  rw [View.canon_unit_zero mm2_zero_offsets]
  simp only [View.ld_unit_zero (S := S2000x16) mm2_zero_offsets, View.ld_unit_zero (S := S16x10) mm2_zero_offsets]
  rw [mm2_pay_eq]
  obtain ⟨-, -, -, -, e0, e1⟩ := mm2_index_maps t
  funext j
  show matProd (iblk2 V c 0 t) (iblk2 V c 1 t) j
    = matProd (V c main_v42) (V c main_arg4) (((cfg2.win 2).blk t).view.emb j)
  have r0 : ((((cfg2.win 2).blk t).view.emb j) 0).val = t.val * 2000 + (j 0).val := by
    show win2_2.index t (0 : Fin 2) * 2000 + 1 * (j 0).val = _; rw [e0]; omega
  have r1 : ((((cfg2.win 2).blk t).view.emb j) 1).val = (j 1).val := by
    show win2_2.index t (1 : Fin 2) * 10 + 1 * (j 1).val = _; rw [e1]; omega
  refine matProd_block_idx _ _ _ _ j _ (fun k => ?_) (fun k => ?_)
  · exact mm2_lhs_block V c t _ _ r0 rfl
  · refine (mm2_rhs_block V c t _).trans (congrArg _ ?_)
    funext a; apply Fin.ext
    match a with
    | ⟨0, _⟩ => rfl
    | ⟨1, _⟩ => exact r1.symm

/-- An index of the product lies in point t's block iff each coordinate is in the block's range on its axis. -/
theorem mm2_mem_blk (t : Fin cfg2.N) (i : S100000x10.Idx) :
    i ∈ ((cfg2.win 2).blk t).view.set ↔ ∀ a : Fin 2, win2_2.index t a * S2000x10.size a ≤ (i a).val
      ∧ (i a).val < win2_2.index t a * S2000x10.size a + S2000x10.size a := by
  show i ∈ ((View.whole main_v43).slice (win2_2.rect t)).set ↔ _
  rw [View.set_slice_whole, Rect.mem_set_unit]
  exact Iff.rfl

/-- Row r of the product lies in the block of point r / 2000. -/
theorem mm2_cover (i : S100000x10.Idx) :
    ∃ t : Fin cfg2.N, (cfg2.win 2).flush t = true ∧ i ∈ ((cfg2.win 2).blk t).view.set := by
  have hi0 : (i 0).val < 100000 := (i 0).isLt
  have hi1 : (i 1).val < 10 := (i 1).isLt
  have ht : (i 0).val / 2000 < 50 := by omega
  refine ⟨⟨(i 0).val / 2000, ht⟩, flush2_2 _, ?_⟩
  rw [mm2_mem_blk]
  obtain ⟨-, -, -, -, e0, e1⟩ := mm2_index_maps ⟨(i 0).val / 2000, ht⟩
  intro a
  match a with
  | ⟨0, _⟩ =>
    show win2_2.index ⟨(i 0).val / 2000, ht⟩ (0 : Fin 2) * 2000 ≤ (i 0).val
      ∧ (i 0).val < win2_2.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_2.index ⟨(i 0).val / 2000, ht⟩ (1 : Fin 2) * 10 ≤ (i 1).val
      ∧ (i 1).val < win2_2.index ⟨(i 0).val / 2000, ht⟩ (1 : Fin 2) * 10 + 10
    rw [e1]; omega

/-- After the region the output array is the product of the hidden features and the second weight. -/
theorem region2_value (c : Dev nD) (a : Vec Ideal S100000x16 .f32) (w : Vec Ideal S16x10 .f32)
    (ha : V c main_v42 = a) (hw : V c main_arg4 = w) :
    (dat2 (F := Ideal) V c).arrAt 2 cfg2.N = Cert.GcnSpec.dense2 (F := Ideal) a w := by
  rw [mm2_spec_eq, ← ha, ← hw]
  exact (dat2 (F := Ideal) V c).arrAt_eq_of_cover 2 _ (fun t _ => mm2_flushed_eq V c t) mm2_cover

end Cert.KernelIdeal.Tiles

end
-- ==== Proof.Region3.lean ====
import proofs.«429038_j39127152067222_3_alg».proof.Proof.Gen.KernelIdeal.Frame
import proofs.«429038_j39127152067222_3_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.KernelIdeal.Tiles

open Cert.KernelIdeal Cert.KernelIdeal.Gen

variable (V : (c : Dev nD) → (b : Ref sig .tc) → Buf (Elt Ideal) ((c : Thread nD τ).loc b))

/-!
  # The second layer's fused epilogue: row softmax of (aggregate + features · normalisation) + bias

  The region runs over fifty grid points; point t loads rows 2000 t … 2000 t + 1999 of the feature array, of the
  aggregate and of the normalisation column, and the whole bias vector, and stores the row softmax of the logits
  z(p, j) = (agg(p, j) + h(p, j) · q(p)) + b(j) of those rows. A row's softmax depends on that row of logits alone:
  exp (z(p, j) − M_p) over Σ_j' exp (z(p, j') − M_p), with M_p the larger of −∞ and the fold of max from −∞ over the
  row. Row p of the tile at point t is row 2000 t + p of the arrays, so the tile's row of logits is the array's row of
  logits entry by entry, and both programs then apply the same function of ten extended reals (`ep2_rowSoftmax`) to it.
  The fifty blocks tile the output array, so the array ends holding the reference's second layer.
-/

open Idealize.ShloMosaic.ValueIdx

/-! ## One row of the softmax, as a function of the row's ten logits -/

/-- The row maximum as both programs take it: the larger of minus infinity and the fold of `max` from minus infinity
    over the row's ten entries. -/
def ep2_rowMax (f : Fin 10 → EReal) : EReal :=
  max (Ideal.ofBits .f32 0xFF800000#32)
    ((Finset.univ : Finset (Fin 10)).fold max (Ideal.ofBits .f32 0xFF800000#32) f)

/-- Entry `j` of the softmax of a row `f`: the exponential of the entry shifted by the row maximum, over the sum of
    the row's shifted exponentials. -/
def ep2_rowSoftmax (f : Fin 10 → EReal) (j : Fin 10) : EReal :=
  Ideal.div (Ideal.exp (f j - ep2_rowMax f)) (∑ k : Fin 10, Ideal.exp (f k - ep2_rowMax f))

/-! ## The tile's arithmetic -/

/-- The logits of a tile: (aggregate + features times the row's normalisation) + bias, the normalisation a
    [2000, 1] column broadcast along the row, the bias a [10] vector broadcast down the rows. -/
def ep2_tileLogits (x0 : Vec Ideal S2000x10 .f32) (x2 : Vec Ideal S2000x1 .f32) (x6 : Vec Ideal S2000x10 .f32)
    (x9 : Vec Ideal S10 .f32) : FVec Ideal S2000x10 .f32 :=
  addf (addf (shapeCast S2000x10 x6 shapeCasts_S2000x10_S2000x10)
      (mulf (shapeCast S2000x10 x0 shapeCasts_S2000x10_S2000x10)
        (broadcastTo S2000x10 (shapeCast S2000x1 x2 shapeCasts_S2000x1_S2000x1) broadcasts_S2000x1_S2000x10)))
    (broadcastTo S2000x10 (shapeCast S1x10 x9 shapeCasts_S10_S1x10) broadcasts_S1x10_S2000x10)

/-- The row maxima of a tile, as a [2000] vector. -/
def ep2_tileMax (z : FVec Ideal S2000x10 .f32) : FVec Ideal S2000 .f32 :=
  maximumf (broadcast S2000 (Scalar.ofBits (F := Ideal) .f32 0xFF800000#32))
    (multiReduction .maximumf [1] S2000 z 0xFF800000#32 reduces_S2000x10_S2000 (.inl rfl) rfl)

/-- The shifted exponentials of a tile. -/
def ep2_tileExp (z : FVec Ideal S2000x10 .f32) : FVec Ideal S2000x10 .f32 :=
  exp (subf z (broadcastTo S2000x10 (shapeCast S2000x1 (ep2_tileMax z) shapeCasts_S2000_S2000x1) broadcasts_S2000x1_S2000x10))

/-- The row softmax of a tile. -/
def ep2_tileSoftmax (z : FVec Ideal S2000x10 .f32) : FVec Ideal S2000x10 .f32 :=
  divf (ep2_tileExp z)
    (broadcastTo S2000x10 (shapeCast S2000x1
      (multiReduction .add [1] S2000 (ep2_tileExp z) 0x00000000#32 reduces_S2000x10_S2000 (.inl rfl) rfl)
      shapeCasts_S2000_S2000x1) broadcasts_S2000x1_S2000x10)

/-- The body's stored value is the row softmax of the tile's logits. -/
theorem ep2_pay_eq (x0 : Vec Ideal S2000x10 .f32) (x2 : Vec Ideal S2000x1 .f32) (x6 : Vec Ideal S2000x10 .f32)
    (x9 : Vec Ideal S10 .f32) : k3_pay1 x0 x2 x6 x9 = ep2_tileSoftmax (ep2_tileLogits x0 x2 x6 x9) := rfl

/-! ## Layout operations of the tile, read at an index -/

/-- A [2000] vector viewed as a [2000, 1] column reads, at row `p`, its entry `p`. -/
theorem ep2_column_apply {α : Type} (v : S2000.Idx → α) (p : Fin 2000) (u : Fin 1) :
    shapeCast S2000x1 v shapeCasts_S2000_S2000x1 (ix2 p u) = v (ix1 p) :=
  shapeCast_apply v shapeCasts_S2000_S2000x1 (ix2 p u) (ix1 p) (by
    have hu : u.val = 0 := by omega
    rw [Shape.rowMajor_val_two, Shape.rowMajor_val_one]
    show p.val = p.val * 1 + u.val
    omega)

/-- A [2000, 1] column broadcast along the rows reads, at (p, j), the column's entry of row `p`. -/
theorem ep2_alongRow_apply {α : Type} (v : S2000x1.Idx → α) (p : Fin 2000) (j : Fin 10) :
    broadcastTo S2000x10 v broadcasts_S2000x1_S2000x10 (ix2 p j) = v (ix2 p (0 : Fin 1)) :=
  broadcastTo_apply v broadcasts_S2000x1_S2000x10 (ix2 p j) (ix2 p (0 : Fin 1)) (fun a => match a with
    | ⟨0, _⟩ => by show p.val = if (2000 : Nat) = 1 then 0 else p.val; rw [if_neg (by decide)]
    | ⟨1, _⟩ => by show 0 = if (1 : Nat) = 1 then 0 else j.val; rw [if_pos rfl])

/-- A [10] vector viewed as a [1, 10] row and broadcast down the rows reads, at (p, j), the vector's entry `j`. -/
theorem ep2_downRows_apply {α : Type} (v : S10.Idx → α) (p : Fin 2000) (j : Fin 10) :
    broadcastTo S2000x10 (shapeCast S1x10 v shapeCasts_S10_S1x10) broadcasts_S1x10_S2000x10 (ix2 p j) = v (ix1 j) :=
  (broadcastTo_apply (shapeCast S1x10 v shapeCasts_S10_S1x10) broadcasts_S1x10_S2000x10 (ix2 p j) (ix2 (0 : Fin 1) j)
    (fun a => match a with
      | ⟨0, _⟩ => by show 0 = if (1 : Nat) = 1 then 0 else p.val; rw [if_pos rfl]
      | ⟨1, _⟩ => by show j.val = if (10 : Nat) = 1 then 0 else j.val; rw [if_neg (by decide)])).trans
    (shapeCast_apply v shapeCasts_S10_S1x10 (ix2 (0 : Fin 1) j) (ix1 j) (by
      rw [Shape.rowMajor_val_two, Shape.rowMajor_val_one]
      show j.val = 0 * 10 + j.val
      omega))

/-- Row `p` of a [2000, 10] tile with the column `k` put back: the index (p, k). -/
theorem ep2_lift_eq (p : Fin 2000) (k : Fin 10) :
    reduces_S2000x10_S2000.lift (ix1 p) k = ix2 p k :=
  funext fun a => Fin.ext (match a with | ⟨0, _⟩ => rfl | ⟨1, _⟩ => rfl)

/-! ## The tile's values at an index -/

/-- The tile's logits at (p, j). -/
theorem ep2_tileLogits_apply (x0 : Vec Ideal S2000x10 .f32) (x2 : Vec Ideal S2000x1 .f32) (x6 : Vec Ideal S2000x10 .f32)
    (x9 : Vec Ideal S10 .f32) (p : Fin 2000) (j : Fin 10) :
    ep2_tileLogits x0 x2 x6 x9 (ix2 p j) = (x6 (ix2 p j) + x0 (ix2 p j) * x2 (ix2 p (0 : Fin 1))) + x9 (ix1 j) := by
  unfold ep2_tileLogits
  rw [shapeCast_self x6, shapeCast_self x0, shapeCast_self x2]
  show (x6 (ix2 p j) + x0 (ix2 p j) * broadcastTo S2000x10 x2 broadcasts_S2000x1_S2000x10 (ix2 p j))
    + broadcastTo S2000x10 (shapeCast S1x10 x9 shapeCasts_S10_S1x10) broadcasts_S1x10_S2000x10 (ix2 p j) = _
  rw [ep2_alongRow_apply x2 p j, ep2_downRows_apply x9 p j]

/-- The tile's row maximum at row `p`. -/
theorem ep2_tileMax_apply (z : FVec Ideal S2000x10 .f32) (p : Fin 2000) :
    ep2_tileMax z (ix1 p) = ep2_rowMax (fun k => z (ix2 p k)) := by
  unfold ep2_tileMax ep2_rowMax
  show max (Ideal.ofBits .f32 0xFF800000#32)
    (multiReduction .maximumf [1] S2000 z 0xFF800000#32 reduces_S2000x10_S2000 (.inl rfl) rfl (ix1 p)) = _
  refine congrArg (max _) ?_
  refine (Ideal.multiReduction_maximumf_single z 0xFF800000#32 reduces_S2000x10_S2000 (.inl rfl) rfl (ix1 p)).trans ?_
  refine Finset.fold_congr fun k _ => ?_
  exact congrArg z (ep2_lift_eq p k)

/-- The tile's shifted exponential at (p, j). -/
theorem ep2_tileExp_apply (z : FVec Ideal S2000x10 .f32) (p : Fin 2000) (j : Fin 10) :
    ep2_tileExp z (ix2 p j) = Ideal.exp (z (ix2 p j) - ep2_rowMax (fun k => z (ix2 p k))) := by
  unfold ep2_tileExp
  show Ideal.exp (z (ix2 p j)
    - broadcastTo S2000x10 (shapeCast S2000x1 (ep2_tileMax z) shapeCasts_S2000_S2000x1) broadcasts_S2000x1_S2000x10 (ix2 p j)) = _
  rw [ep2_alongRow_apply, ep2_column_apply, ep2_tileMax_apply]

/-- The tile's softmax at (p, j): the softmax of row `p` of the tile. -/
theorem ep2_tileSoftmax_apply (z : FVec Ideal S2000x10 .f32) (p : Fin 2000) (j : Fin 10) :
    ep2_tileSoftmax z (ix2 p j) = ep2_rowSoftmax (fun k => z (ix2 p k)) j := by
  unfold ep2_tileSoftmax ep2_rowSoftmax
  show Ideal.div (ep2_tileExp z (ix2 p j))
    (broadcastTo S2000x10 (shapeCast S2000x1
      (multiReduction .add [1] S2000 (ep2_tileExp z) 0x00000000#32 reduces_S2000x10_S2000 (.inl rfl) rfl)
      shapeCasts_S2000_S2000x1) broadcasts_S2000x1_S2000x10 (ix2 p j)) = _
  rw [ep2_alongRow_apply, ep2_column_apply, ep2_tileExp_apply]
  refine congrArg (Ideal.div _) ?_
  refine (Ideal.multiReduction_add_single (ep2_tileExp z) 0x00000000#32 reduces_S2000x10_S2000 (.inl rfl) rfl (ix1 p)).trans ?_
  refine Finset.sum_congr rfl fun k _ => ?_
  exact (congrArg (ep2_tileExp z) (ep2_lift_eq p k)).trans (ep2_tileExp_apply z p k)

/-! ## The reference's row softmax, read at an index -/

/-- A [100000] vector as a [100000, 1] column broadcast along the rows reads, at (r, j), the vector's entry `r`. -/
theorem ep2_refAlongRow_apply {α : Type} (v : Cert.ReferenceIdeal.S100000.Idx → α) (r : Fin 100000) (j : Fin 10) :
    broadcastInDim Cert.ReferenceIdeal.S100000x10 ![0, 1] Cert.ReferenceIdeal.Gen.bcast_S100000x1_S100000x10_0_1
      (broadcastInDim Cert.ReferenceIdeal.S100000x1 ![0] Cert.ReferenceIdeal.Gen.bcast_S100000_S100000x1_0 v) (ix2 r j)
      = v (ix1 r) :=
  (broadcastInDim_apply _ Cert.ReferenceIdeal.Gen.bcast_S100000x1_S100000x10_0_1 _ (ix2 r j) (ix2 r (0 : Fin 1))
    (fun a => match a with
      | ⟨0, _⟩ => by show r.val = if (100000 : Nat) = 1 then 0 else r.val; rw [if_neg (by decide)]
      | ⟨1, _⟩ => by show 0 = if (1 : Nat) = 1 then 0 else j.val; rw [if_pos rfl])).trans
    (broadcastInDim_apply _ Cert.ReferenceIdeal.Gen.bcast_S100000_S100000x1_0 v (ix2 r (0 : Fin 1)) (ix1 r)
      (fun a => match a with
        | ⟨0, _⟩ => by show r.val = if (100000 : Nat) = 1 then 0 else r.val; rw [if_neg (by decide)]))

/-- A [10] vector as a [1, 10] row broadcast down the rows reads, at (r, j), the vector's entry `j`. -/
theorem ep2_refDownRows_apply {α : Type} (v : Cert.ReferenceIdeal.S10.Idx → α) (r : Fin 100000) (j : Fin 10) :
    broadcastInDim Cert.ReferenceIdeal.S100000x10 ![0, 1] Cert.ReferenceIdeal.Gen.bcast_S1x10_S100000x10_0_1
      (broadcastInDim Cert.ReferenceIdeal.S1x10 ![1] Cert.ReferenceIdeal.Gen.bcast_S10_S1x10_1 v) (ix2 r j)
      = v (ix1 j) :=
  (broadcastInDim_apply _ Cert.ReferenceIdeal.Gen.bcast_S1x10_S100000x10_0_1 _ (ix2 r j) (ix2 (0 : Fin 1) j)
    (fun a => match a with
      | ⟨0, _⟩ => by show 0 = if (1 : Nat) = 1 then 0 else r.val; rw [if_pos rfl]
      | ⟨1, _⟩ => by show j.val = if (10 : Nat) = 1 then 0 else j.val; rw [if_neg (by decide)])).trans
    (broadcastInDim_apply _ Cert.ReferenceIdeal.Gen.bcast_S10_S1x10_1 v (ix2 (0 : Fin 1) j) (ix1 j)
      (fun a => match a with
        | ⟨0, _⟩ => by show j.val = if (10 : Nat) = 1 then 0 else j.val; rw [if_neg (by decide)]))

/-- The [100000, 10] array reduces along its rows to a [100000] vector. -/
theorem ep2_refReduces : Cert.ReferenceIdeal.S100000x10.Reduces [1] Cert.ReferenceIdeal.S100000 := by decide

/-- Row `r` of the array with the column `k` put back: the index (r, k). -/
theorem ep2_refLift_eq (r : Fin 100000) (k : Fin 10) : ep2_refReduces.lift (ix1 r) k = ix2 r k :=
  funext fun a => Fin.ext (match a with | ⟨0, _⟩ => rfl | ⟨1, _⟩ => rfl)

/-- The host's exponential at an index is the extended reals' exponential of the entry. -/
theorem ep2_hostExp_apply {s : Shape} (x : FVec Ideal s .f32) (i : s.Idx) : Host.exp x i = Ideal.exp (x i) := rfl

/-- The host's quotient at an index is the extended reals' quotient of the entries. -/
theorem ep2_hostDivf_apply {s : Shape} (x y : FVec Ideal s .f32) (i : s.Idx) :
    Host.divf x y i = Ideal.div (x i) (y i) := rfl

/-- The reference's logits at (r, j). -/
theorem ep2_pre2_apply (h agg : Vec Ideal S100000x10 .f32) (q : Vec Ideal S100000 .f32) (b : Vec Ideal S10 .f32)
    (r : Fin 100000) (j : Fin 10) :
    Cert.GcnSpec.pre2 (F := Ideal) h agg q b (ix2 r j) = (agg (ix2 r j) + h (ix2 r j) * q (ix1 r)) + b (ix1 j) := by
  unfold Cert.GcnSpec.pre2
  show (agg (ix2 r j) + h (ix2 r j)
      * broadcastInDim Cert.ReferenceIdeal.S100000x10 ![0, 1] Cert.ReferenceIdeal.Gen.bcast_S100000x1_S100000x10_0_1
          (broadcastInDim Cert.ReferenceIdeal.S100000x1 ![0] Cert.ReferenceIdeal.Gen.bcast_S100000_S100000x1_0 q) (ix2 r j))
    + broadcastInDim Cert.ReferenceIdeal.S100000x10 ![0, 1] Cert.ReferenceIdeal.Gen.bcast_S1x10_S100000x10_0_1
        (broadcastInDim Cert.ReferenceIdeal.S1x10 ![1] Cert.ReferenceIdeal.Gen.bcast_S10_S1x10_1 b) (ix2 r j) = _
  rw [ep2_refAlongRow_apply q r j, ep2_refDownRows_apply b r j]

/-- The reference's shifted exponential at (r, j). -/
theorem ep2_expShift_apply (Z : FVec Ideal S100000x10 .f32) (r : Fin 100000) (j : Fin 10) :
    Cert.GcnSpec.expShift (F := Ideal) Z (ix2 r j) = Ideal.exp (Z (ix2 r j) - ep2_rowMax (fun k => Z (ix2 r k))) := by
  unfold Cert.GcnSpec.expShift
  rw [ep2_hostExp_apply, subf_apply, ep2_refAlongRow_apply, maximumf_apply]
  refine congrArg (fun m => Ideal.exp (Z (ix2 r j) - m)) ?_
  unfold ep2_rowMax
  refine congrArg₂ max ((Cert.ReferenceIdeal.Read.val_main_v94_apply (F := Ideal) (ix1 r)).trans rfl) ?_
  refine (Host.reduce_eq_fold_single (FloatOps.maximumf (F := Ideal) (φ := .f32)) Z (Cert.ReferenceIdeal.Read.val_main_cst_18 (F := Ideal))
    Cert.ReferenceIdeal.Gen.reducesTo_S100000x10_S100000_d1 ep2_refReduces Cert.ReferenceIdeal.Gen.h_S_ (ix1 r)).trans ?_
  refine Finset.fold_congr fun k _ => ?_
  exact congrArg Z (ep2_refLift_eq r k)

/-- The reference's row softmax at (r, j): the softmax of row `r` of the logits. -/
theorem ep2_softmaxRows_apply (Z : FVec Ideal S100000x10 .f32) (r : Fin 100000) (j : Fin 10) :
    Cert.GcnSpec.softmaxRows (F := Ideal) Z (ix2 r j) = ep2_rowSoftmax (fun k => Z (ix2 r k)) j := by
  unfold Cert.GcnSpec.softmaxRows ep2_rowSoftmax
  rw [ep2_hostDivf_apply, ep2_refAlongRow_apply, ep2_expShift_apply]
  refine congrArg (Ideal.div _) ?_
  refine (Ideal.hostReduceAdd_single Cert.ReferenceIdeal.Gen.reducesTo_S100000x10_S100000_d1 ep2_refReduces
    (Cert.GcnSpec.expShift (F := Ideal) Z)
    (Cert.ReferenceIdeal.Read.val_main_cst_20 (F := Ideal) (Shape.Idx.first Cert.ReferenceIdeal.Gen.h_S_)) (ix1 r)).trans ?_
  rw [show Cert.ReferenceIdeal.Read.val_main_cst_20 (F := Ideal) (Shape.Idx.first Cert.ReferenceIdeal.Gen.h_S_)
    = (0 : EReal) from Ideal.ofBits_zero_f32, zero_add]
  refine Finset.sum_congr rfl fun k _ => ?_
  exact (congrArg (Cert.GcnSpec.expShift (F := Ideal) Z) (ep2_refLift_eq r k)).trans (ep2_expShift_apply Z r k)

/-! ## From the tiles to the array -/

/-- Zero offsets, however the zeros are spelt. -/
theorem ep2_zero2 : (![0, 0] : Fin 2 → Nat) = fun _ => 0 := funext fun a => by fin_cases a <;> rfl
theorem ep2_zero1 : (![0] : Fin 1 → Nat) = fun _ => 0 := funext fun a => by fin_cases a <;> rfl

/-- The printed index maps of the region, decided over its fifty points: the row-tiled windows sit at block (t, 0),
    the bias at block 0. -/
theorem ep2_index : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 1) = 0
    ∧ win3_4.index t (0 : Fin 2) = t.val ∧ win3_4.index t (1 : Fin 2) = 0 :=
  (by decide +kernel : ∀ t : Fin grid3.N, _)

/-- Entry y of the feature window's block at point t is entry (2000 t + y0, y1) of the feature array. -/
theorem ep2_blk_features (c : Dev nD) (t : Fin cfg3.N) (y : S2000x10.Idx) (i : S100000x10.Idx)
    (h0 : (i 0).val = 2000 * t.val + (y 0).val) (h1 : (i 1).val = (y 1).val) :
    (iblk3 V c 0 t : Vec Ideal S2000x10 .f32) y = (V c main_v43 : Vec Ideal S100000x10 .f32) i := by
  obtain ⟨e0, e1, -⟩ := ep2_index t
  unfold iblk3
  rw [View.read_apply]
  show V c main_v43 _ = V c main_v43 i
  congr 1
  funext a
  apply Fin.ext
  match a with
  | ⟨0, _⟩ => show win3_0.index t 0 * 2000 + 1 * (y 0).val = (i 0).val; rw [e0, h0]; omega
  | ⟨1, _⟩ => show win3_0.index t 1 * 10 + 1 * (y 1).val = (i 1).val; rw [e1, h1]; omega

/-- Entry y of the aggregate window's block at point t is entry (2000 t + y0, y1) of the aggregate array. -/
theorem ep2_blk_aggregate (c : Dev nD) (t : Fin cfg3.N) (y : S2000x10.Idx) (i : S100000x10.Idx)
    (h0 : (i 0).val = 2000 * t.val + (y 0).val) (h1 : (i 1).val = (y 1).val) :
    (iblk3 V c 1 t : Vec Ideal S2000x10 .f32) y = (V c main_v56 : Vec Ideal S100000x10 .f32) i := by
  obtain ⟨-, -, e0, e1, -⟩ := ep2_index t
  unfold iblk3
  rw [View.read_apply]
  show V c main_v56 _ = V c main_v56 i
  congr 1
  funext a
  apply Fin.ext
  match a with
  | ⟨0, _⟩ => show win3_1.index t 0 * 2000 + 1 * (y 0).val = (i 0).val; rw [e0, h0]; omega
  | ⟨1, _⟩ => show win3_1.index t 1 * 10 + 1 * (y 1).val = (i 1).val; rw [e1, h1]; omega

/-- Entry y of the normalisation column's block at point t is entry (2000 t + y0, y1) of the column. -/
theorem ep2_blk_column (c : Dev nD) (t : Fin cfg3.N) (y : S2000x1.Idx) (i : S100000x1.Idx)
    (h0 : (i 0).val = 2000 * t.val + (y 0).val) (h1 : (i 1).val = (y 1).val) :
    (iblk3 V c 2 t : Vec Ideal S2000x1 .f32) y = (V c main_v12 : Vec Ideal S100000x1 .f32) i := by
  obtain ⟨-, -, -, -, e0, e1, -⟩ := ep2_index t
  unfold iblk3
  rw [View.read_apply]
  show V c main_v12 _ = V c main_v12 i
  congr 1
  funext a
  apply Fin.ext
  match a with
  | ⟨0, _⟩ => show win3_2.index t 0 * 2000 + 1 * (y 0).val = (i 0).val; rw [e0, h0]; omega
  | ⟨1, _⟩ => show win3_2.index t 1 * 1 + 1 * (y 1).val = (i 1).val; rw [e1, h1]; omega

/-- The bias window's block at every point is the whole bias vector. -/
theorem ep2_blk_bias (c : Dev nD) (t : Fin cfg3.N) (y : S10.Idx) (i : S10.Idx) (h0 : (i 0).val = (y 0).val) :
    (iblk3 V c 3 t : Vec Ideal S10 .f32) y = (V c main_arg5 : Vec Ideal S10 .f32) i := by
  obtain ⟨-, -, -, -, -, -, e0, -⟩ := ep2_index t
  unfold iblk3
  rw [View.read_apply]
  show V c main_arg5 _ = V c main_arg5 i
  congr 1
  funext a
  apply Fin.ext
  match a with
  | ⟨0, _⟩ => show win3_3.index t 0 * 10 + 1 * (y 0).val = (i 0).val; rw [e0, h0]; omega

/-- THE POINT'S VALUE: at grid point t the body's stored value at (p, j) is the reference layer's entry (2000 t + p, j)
    of the arrays the region finds: row p of the tile is row 2000 t + p of the arrays, so the two rows of logits agree
    entry by entry, and with them the row maxima, the shifted exponentials, their sums and the quotients. -/
theorem ep2_point (c : Dev nD) (t : Fin cfg3.N) (q : Vec Ideal S100000 .f32)
    (hq : ∀ (i : S100000x1.Idx) (j : S100000.Idx), (j 0).val = (i 0).val → V c main_v12 i = q j)
    (p : Fin 2000) (j : Fin 10) (r : Fin 100000) (hr : r.val = 2000 * t.val + p.val) :
    k3_pay1 (iblk3 V c 0 t) (iblk3 V c 2 t) (iblk3 V c 1 t) (iblk3 V c 3 t) (ix2 p j)
      = Cert.GcnSpec.layer2 (F := Ideal) (V c main_v43) (V c main_v56) q (V c main_arg5) (ix2 r j) := by
  rw [ep2_pay_eq, ep2_tileSoftmax_apply]
  unfold Cert.GcnSpec.layer2
  rw [ep2_softmaxRows_apply]
  refine congrArg (fun f => ep2_rowSoftmax f j) (funext fun k => ?_)
  rw [ep2_tileLogits_apply, ep2_pre2_apply]
  rw [ep2_blk_features V c t (ix2 p k) (ix2 r k) hr rfl, ep2_blk_aggregate V c t (ix2 p k) (ix2 r k) hr rfl,
    ep2_blk_column V c t (ix2 p (0 : Fin 1)) (ix2 r (0 : Fin 1)) hr rfl, hq (ix2 r (0 : Fin 1)) (ix1 r) rfl,
    ep2_blk_bias V c t (ix1 k) (ix1 k) rfl]

/-- WHAT POINT t WRITES BACK is block t of the reference layer of the arrays the region finds. -/
theorem ep2_flushed_eq (c : Dev nD) (t : Fin cfg3.N) (q : Vec Ideal S100000 .f32)
    (hq : ∀ (i : S100000x1.Idx) (j : S100000.Idx), (j 0).val = (i 0).val → V c main_v12 i = q j) :
    (dat3 (F := Ideal) V c).flushed 4 t = ((cfg3.win 4).blk t).view.read (Elt Ideal)
      (Cert.GcnSpec.layer2 (F := Ideal) (V c main_v43) (V c main_v56) q (V c main_arg5)) := by
  show (cfg3.win 4).cut (grid3.coords t) ((dat3 (F := Ideal) V c).after 4 t) = _
  rw [after3_4]
  unfold out3_4
  rw [View.canon_unit_zero ep2_zero2]
  simp only [View.ld_unit_zero (S := S2000x10) ep2_zero2, View.ld_unit_zero (S := S2000x1) ep2_zero2,
    View.ld_unit_zero (S := S10) ep2_zero1]
  obtain ⟨-, -, -, -, -, -, -, e0, e1⟩ := ep2_index t
  have ht : t.val < 50 := t.isLt
  funext y
  obtain ⟨p, j, rfl⟩ : ∃ (p : Fin 2000) (j : Fin 10), y = ix2 p j := ⟨y 0, y 1, eq_ix2 y⟩
  rw [View.read_apply]
  have hi : ((cfg3.win 4).blk t).view.emb (ix2 p j) = ix2 (⟨2000 * t.val + p.val, by omega⟩ : Fin 100000) j := by
    funext a
    apply Fin.ext
    match a with
    | ⟨0, _⟩ => show win3_4.index t 0 * 2000 + 1 * p.val = 2000 * t.val + p.val; rw [e0]; omega
    | ⟨1, _⟩ => show win3_4.index t 1 * 10 + 1 * j.val = j.val; rw [e1]; omega
  rw [hi]
  exact ep2_point V c t q hq p j ⟨2000 * t.val + p.val, by omega⟩ rfl

/-- An index of the output array is in point t's block iff each coordinate is in the block's range on its axis. -/
theorem ep2_mem_blk (t : Fin cfg3.N) (i : S100000x10.Idx) :
    i ∈ ((cfg3.win 4).blk t).view.set ↔ ∀ a : Fin 2, win3_4.index t a * S2000x10.size a ≤ (i a).val
      ∧ (i a).val < win3_4.index t a * S2000x10.size a + S2000x10.size a := by
  show i ∈ ((View.whole main_v57).slice (win3_4.rect t)).set ↔ _
  rw [View.set_slice_whole, Rect.mem_set_unit]
  exact Iff.rfl

/-- Every index of the output array lies in the block of the point its row falls in: row r in point r / 2000's. -/
theorem ep2_cover (i : S100000x10.Idx) :
    ∃ t : Fin cfg3.N, (cfg3.win 4).flush t = true ∧ i ∈ ((cfg3.win 4).blk t).view.set := by
  have hi0 : (i 0).val < 100000 := (i 0).isLt
  have hi1 : (i 1).val < 10 := (i 1).isLt
  refine ⟨⟨(i 0).val / 2000, by show (i 0).val / 2000 < 50; omega⟩, flush3_4 _, ?_⟩
  rw [ep2_mem_blk]
  obtain ⟨-, -, -, -, -, -, -, e0, e1⟩ := ep2_index ⟨(i 0).val / 2000, by show (i 0).val / 2000 < 50; omega⟩
  intro a
  match a with
  | ⟨0, _⟩ =>
    show win3_4.index _ (0 : Fin 2) * 2000 ≤ (i 0).val ∧ (i 0).val < win3_4.index _ (0 : Fin 2) * 2000 + 2000
    rw [e0]
    show (i 0).val / 2000 * 2000 ≤ _ ∧ _ < (i 0).val / 2000 * 2000 + 2000
    omega
  | ⟨1, _⟩ =>
    show win3_4.index _ (1 : Fin 2) * 10 ≤ (i 1).val ∧ (i 1).val < win3_4.index _ (1 : Fin 2) * 10 + 10
    rw [e1]
    omega

/-- THE REGION'S VALUE: after the fifty points the output array holds the reference's second layer of the arrays the
    region finds, the normalisation column read as the vector it is the column of. -/
theorem region3_value (c : Dev nD) (h agg : Vec Ideal S100000x10 .f32) (qcol : Vec Ideal S100000x1 .f32) (b : Vec Ideal S10 .f32)
    (q : Vec Ideal S100000 .f32)
    (hh : V c main_v43 = h) (hagg : V c main_v56 = agg) (hqc : V c main_v12 = qcol) (hb : V c main_arg5 = b)
    (hq : ∀ (i : S100000x1.Idx) (j : S100000.Idx), (j 0).val = (i 0).val → qcol i = q j) :
    (dat3 (F := Ideal) V c).arrAt 4 cfg3.N = Cert.GcnSpec.layer2 (F := Ideal) h agg q b := by
  subst hh hagg hqc hb
  exact (dat3 (F := Ideal) V c).arrAt_eq_of_cover 4 _ (fun t _ => ep2_flushed_eq V c t q hq) ep2_cover

end Cert.KernelIdeal.Tiles

end
-- ==== Proof.Walk.lean ====
/-
  The contents of the buffers the four tiled regions read and write, walked through the program from the launch to
  the return. The host stretches between the regions apply to the regions' outputs exactly the reference's own
  operations (the edge gather, the scaling by the edge coefficient, the scatter-add), so each boundary's contents
  are named by the reference's stage functions of the launched arguments: x · W1, its edge aggregation, the first
  layer's output, its product with W2, the second aggregation, and last the row softmax that is the result.
  A buffer that neither a stretch nor a region writes keeps its contents across it.
-/
import proofs.«429038_j39127152067222_3_alg».proof.Proof.Gen.KernelIdeal.Frame
import proofs.«429038_j39127152067222_3_alg».proof.Proof.Spec
import proofs.«429038_j39127152067222_3_alg».proof.Proof.Region0
import proofs.«429038_j39127152067222_3_alg».proof.Proof.Region1
import proofs.«429038_j39127152067222_3_alg».proof.Proof.Region2
import proofs.«429038_j39127152067222_3_alg».proof.Proof.Region3
import Idealize.ShloMosaic.Lib.StableHlo.Run
import Idealize.ShloMosaic.Lib.Pipeline.Value

set_option maxRecDepth 16384

noncomputable section

open Idealize.ShloMosaic Idealize.ShloMosaic.TcCoe Idealize.SL.Sem Idealize.ShloMosaic.StableHlo
open Idealize.ShloMosaic.Pipeline (Dat)

/-- A buffer no operation of a host stretch writes holds after the stretch what it held before. -/
macro "host_keeps" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

namespace Cert.KernelIdeal.Walk

open Cert.KernelIdeal Cert.KernelIdeal.Gen Cert.GcnSpec

variable (m : (ℓ : Loc nD τ sig) → Buf (Elt Ideal) ℓ) (ρ : Dev nD → PrngReg) (c : Dev nD)

/-! ## The arguments as launched -/

abbrev X0 : (⟨S100000x128, .f32⟩ : BufTy).Contents (Elt Ideal) := m ((c : Thread nD τ).loc main_arg0)
abbrev E1 : (⟨S2x3200000, .i32⟩ : BufTy).Contents (Elt Ideal) := m ((c : Thread nD τ).loc main_arg1)
abbrev X2 : (⟨S128x16, .f32⟩ : BufTy).Contents (Elt Ideal) := m ((c : Thread nD τ).loc main_arg2)
abbrev X3 : (⟨S16, .f32⟩ : BufTy).Contents (Elt Ideal) := m ((c : Thread nD τ).loc main_arg3)
abbrev X4 : (⟨S16x10, .f32⟩ : BufTy).Contents (Elt Ideal) := m ((c : Thread nD τ).loc main_arg4)
abbrev X5 : (⟨S10, .f32⟩ : BufTy).Contents (Elt Ideal) := m ((c : Thread nD τ).loc main_arg5)

/-- The squared normalisation as the [100000, 1] column the two epilogue regions read. -/
def qcolOf (e : (⟨S2x3200000, .i32⟩ : BufTy).Contents (Elt Ideal)) : (⟨S100000x1, .f32⟩ : BufTy).Contents (Elt Ideal) :=
  shapeCast S100000x1 (normSq (F := Ideal) e) shapeCasts_S100000_S100000x1

/-- Entry (r, 0) of the column is entry r of the vector it reshapes. -/
theorem qcolOf_apply (e : (⟨S2x3200000, .i32⟩ : BufTy).Contents (Elt Ideal)) (i : S100000x1.Idx) (j : S100000.Idx)
    (hij : (j 0).val = (i 0).val) : qcolOf e i = normSq (F := Ideal) e j := by
  unfold qcolOf
  refine shapeCast_apply _ shapeCasts_S100000_S100000x1 i j ?_
  have hi1 : (i 1).val < 1 := (i 1).isLt
  rw [Shape.rowMajor_val_two, Shape.rowMajor_val_one]
  show (j 0).val = (i 0).val * 1 + (i 1).val
  omega

/-! ## After the first host stretch (entering the first product) -/

theorem src_at1 : W1 m ρ c (Proc.devRef .tc main_v1) = Cert.ReferenceIdeal.Read.val_main_v1 (F := Ideal) (E1 m c) := by
  show StableHlo.after hostOps0 (W0 m ρ c) (Proc.devRef .tc main_v1) = _
  after_results_simp
  rfl

theorem dst_at1 : W1 m ρ c (Proc.devRef .tc main_v3) = Cert.ReferenceIdeal.Read.val_main_v3 (F := Ideal) (E1 m c) := by
  show StableHlo.after hostOps0 (W0 m ρ c) (Proc.devRef .tc main_v3) = _
  after_results_simp
  rfl

set_option maxHeartbeats 4000000 in
theorem coef_at1 : W1 m ρ c (Proc.devRef .tc main_v27) = Cert.ReferenceIdeal.Read.val_main_v26 (F := Ideal) (E1 m c) := by
  show StableHlo.after hostOps0 (W0 m ρ c) (Proc.devRef .tc main_v27) = _
  after_results_simp
  rfl

set_option maxHeartbeats 4000000 in
theorem qcol_at1 : W1 m ρ c (Proc.devRef .tc main_v12) = qcolOf (E1 m c) := by
  show StableHlo.after hostOps0 (W0 m ρ c) (Proc.devRef .tc main_v12) = _
  after_results_simp
  rfl

theorem arg0_at1 : W1 m ρ c (Proc.devRef .tc main_arg0) = X0 m c := by
  show StableHlo.after hostOps0 (W0 m ρ c) (Proc.devRef .tc main_arg0) = _
  host_keeps hostOps0
theorem arg2_at1 : W1 m ρ c (Proc.devRef .tc main_arg2) = X2 m c := by
  show StableHlo.after hostOps0 (W0 m ρ c) (Proc.devRef .tc main_arg2) = _
  host_keeps hostOps0
theorem arg3_at1 : W1 m ρ c (Proc.devRef .tc main_arg3) = X3 m c := by
  show StableHlo.after hostOps0 (W0 m ρ c) (Proc.devRef .tc main_arg3) = _
  host_keeps hostOps0
theorem arg4_at1 : W1 m ρ c (Proc.devRef .tc main_arg4) = X4 m c := by
  show StableHlo.after hostOps0 (W0 m ρ c) (Proc.devRef .tc main_arg4) = _
  host_keeps hostOps0
theorem arg5_at1 : W1 m ρ c (Proc.devRef .tc main_arg5) = X5 m c := by
  show StableHlo.after hostOps0 (W0 m ρ c) (Proc.devRef .tc main_arg5) = _
  host_keeps hostOps0

/-! ## After the first product -/

/-- x · W1 over the whole table: what the first region's write-backs leave. -/
theorem h1_at2 : W2 m ρ c (Proc.devRef .tc main_v28) = dense1 (X0 m c) (X2 m c) :=
  (W2_arr m ρ c 2).trans (Cert.KernelIdeal.Tiles.region0_value (V1 m ρ) c _ _ (arg0_at1 m ρ c) (arg2_at1 m ρ c))

theorem src_at2 : W2 m ρ c (Proc.devRef .tc main_v1) = Cert.ReferenceIdeal.Read.val_main_v1 (F := Ideal) (E1 m c) :=
  (W2_of_ne m ρ c main_v1 (by decide)).trans (src_at1 m ρ c)
theorem dst_at2 : W2 m ρ c (Proc.devRef .tc main_v3) = Cert.ReferenceIdeal.Read.val_main_v3 (F := Ideal) (E1 m c) :=
  (W2_of_ne m ρ c main_v3 (by decide)).trans (dst_at1 m ρ c)
theorem coef_at2 : W2 m ρ c (Proc.devRef .tc main_v27) = Cert.ReferenceIdeal.Read.val_main_v26 (F := Ideal) (E1 m c) :=
  (W2_of_ne m ρ c main_v27 (by decide)).trans (coef_at1 m ρ c)
theorem qcol_at2 : W2 m ρ c (Proc.devRef .tc main_v12) = qcolOf (E1 m c) :=
  (W2_of_ne m ρ c main_v12 (by decide)).trans (qcol_at1 m ρ c)
theorem arg3_at2 : W2 m ρ c (Proc.devRef .tc main_arg3) = X3 m c :=
  (W2_of_ne m ρ c main_arg3 (by decide)).trans (arg3_at1 m ρ c)
theorem arg4_at2 : W2 m ρ c (Proc.devRef .tc main_arg4) = X4 m c :=
  (W2_of_ne m ρ c main_arg4 (by decide)).trans (arg4_at1 m ρ c)
theorem arg5_at2 : W2 m ρ c (Proc.devRef .tc main_arg5) = X5 m c :=
  (W2_of_ne m ρ c main_arg5 (by decide)).trans (arg5_at1 m ρ c)

/-! ## After the first aggregation (entering the first epilogue) -/

theorem h1_at3 : W3 m ρ c (Proc.devRef .tc main_v28) = dense1 (X0 m c) (X2 m c) := by
  refine Eq.trans ?_ (h1_at2 m ρ c)
  show StableHlo.after hostOps1 (W2 m ρ c) (Proc.devRef .tc main_v28) = _
  host_keeps hostOps1
theorem src_at3 : W3 m ρ c (Proc.devRef .tc main_v1) = Cert.ReferenceIdeal.Read.val_main_v1 (F := Ideal) (E1 m c) := by
  refine Eq.trans ?_ (src_at2 m ρ c)
  show StableHlo.after hostOps1 (W2 m ρ c) (Proc.devRef .tc main_v1) = _
  host_keeps hostOps1
theorem dst_at3 : W3 m ρ c (Proc.devRef .tc main_v3) = Cert.ReferenceIdeal.Read.val_main_v3 (F := Ideal) (E1 m c) := by
  refine Eq.trans ?_ (dst_at2 m ρ c)
  show StableHlo.after hostOps1 (W2 m ρ c) (Proc.devRef .tc main_v3) = _
  host_keeps hostOps1
theorem coef_at3 : W3 m ρ c (Proc.devRef .tc main_v27) = Cert.ReferenceIdeal.Read.val_main_v26 (F := Ideal) (E1 m c) := by
  refine Eq.trans ?_ (coef_at2 m ρ c)
  show StableHlo.after hostOps1 (W2 m ρ c) (Proc.devRef .tc main_v27) = _
  host_keeps hostOps1
theorem qcol_at3 : W3 m ρ c (Proc.devRef .tc main_v12) = qcolOf (E1 m c) := by
  refine Eq.trans ?_ (qcol_at2 m ρ c)
  show StableHlo.after hostOps1 (W2 m ρ c) (Proc.devRef .tc main_v12) = _
  host_keeps hostOps1
theorem arg3_at3 : W3 m ρ c (Proc.devRef .tc main_arg3) = X3 m c := by
  refine Eq.trans ?_ (arg3_at2 m ρ c)
  show StableHlo.after hostOps1 (W2 m ρ c) (Proc.devRef .tc main_arg3) = _
  host_keeps hostOps1
theorem arg4_at3 : W3 m ρ c (Proc.devRef .tc main_arg4) = X4 m c := by
  refine Eq.trans ?_ (arg4_at2 m ρ c)
  show StableHlo.after hostOps1 (W2 m ρ c) (Proc.devRef .tc main_arg4) = _
  host_keeps hostOps1
theorem arg5_at3 : W3 m ρ c (Proc.devRef .tc main_arg5) = X5 m c := by
  refine Eq.trans ?_ (arg5_at2 m ρ c)
  show StableHlo.after hostOps1 (W2 m ρ c) (Proc.devRef .tc main_arg5) = _
  host_keeps hostOps1

set_option maxHeartbeats 4000000 in
/-- The first layer's edge aggregation of x · W1. -/
theorem agg1_at3 : W3 m ρ c (Proc.devRef .tc main_v41) = aggr16 (dense1 (X0 m c) (X2 m c)) (E1 m c) := by
  show StableHlo.after hostOps1 (W2 m ρ c) (Proc.devRef .tc main_v41) = _
  after_results_simp
  rw [h1_at2 m ρ c, src_at2 m ρ c, dst_at2 m ρ c, coef_at2 m ρ c]
  rfl

/-! ## After the first epilogue (entering the second product) -/

/-- The first layer's output over the whole table. -/
theorem a1_at4 : W4 m ρ c (Proc.devRef .tc main_v42)
    = layer1 (dense1 (X0 m c) (X2 m c)) (aggr16 (dense1 (X0 m c) (X2 m c)) (E1 m c)) (normSq (E1 m c)) (X3 m c) :=
  (W4_arr m ρ c 4).trans (Cert.KernelIdeal.Tiles.region1_value (V3 m ρ) c _ _ _ _ _
    (h1_at3 m ρ c) (agg1_at3 m ρ c) (qcol_at3 m ρ c) (arg3_at3 m ρ c) (qcolOf_apply (E1 m c)))

theorem src_at4 : W4 m ρ c (Proc.devRef .tc main_v1) = Cert.ReferenceIdeal.Read.val_main_v1 (F := Ideal) (E1 m c) :=
  (W4_of_ne m ρ c main_v1 (by decide)).trans (src_at3 m ρ c)
theorem dst_at4 : W4 m ρ c (Proc.devRef .tc main_v3) = Cert.ReferenceIdeal.Read.val_main_v3 (F := Ideal) (E1 m c) :=
  (W4_of_ne m ρ c main_v3 (by decide)).trans (dst_at3 m ρ c)
theorem coef_at4 : W4 m ρ c (Proc.devRef .tc main_v27) = Cert.ReferenceIdeal.Read.val_main_v26 (F := Ideal) (E1 m c) :=
  (W4_of_ne m ρ c main_v27 (by decide)).trans (coef_at3 m ρ c)
/-- The column is an input array of the first epilogue: the region leaves it as it found it. -/
theorem qcol_at4 : W4 m ρ c (Proc.devRef .tc main_v12) = qcolOf (E1 m c) :=
  (W4_arr m ρ c 2).trans ((((dat1 (V3 m ρ) c).arrAt_in 2 rfl _).trans (A_eq1 (V3 m ρ) c 2)).trans (qcol_at3 m ρ c))
theorem arg4_at4 : W4 m ρ c (Proc.devRef .tc main_arg4) = X4 m c :=
  (W4_of_ne m ρ c main_arg4 (by decide)).trans (arg4_at3 m ρ c)
theorem arg5_at4 : W4 m ρ c (Proc.devRef .tc main_arg5) = X5 m c :=
  (W4_of_ne m ρ c main_arg5 (by decide)).trans (arg5_at3 m ρ c)

/-! ## After the second product -/

/-- The hidden features times W2. -/
theorem h2_at5 : W5 m ρ c (Proc.devRef .tc main_v43)
    = dense2 (layer1 (dense1 (X0 m c) (X2 m c)) (aggr16 (dense1 (X0 m c) (X2 m c)) (E1 m c)) (normSq (E1 m c)) (X3 m c)) (X4 m c) :=
  (W5_arr m ρ c 2).trans (Cert.KernelIdeal.Tiles.region2_value (V4 m ρ) c _ _ (a1_at4 m ρ c) (arg4_at4 m ρ c))

theorem src_at5 : W5 m ρ c (Proc.devRef .tc main_v1) = Cert.ReferenceIdeal.Read.val_main_v1 (F := Ideal) (E1 m c) :=
  (W5_of_ne m ρ c main_v1 (by decide)).trans (src_at4 m ρ c)
theorem dst_at5 : W5 m ρ c (Proc.devRef .tc main_v3) = Cert.ReferenceIdeal.Read.val_main_v3 (F := Ideal) (E1 m c) :=
  (W5_of_ne m ρ c main_v3 (by decide)).trans (dst_at4 m ρ c)
theorem coef_at5 : W5 m ρ c (Proc.devRef .tc main_v27) = Cert.ReferenceIdeal.Read.val_main_v26 (F := Ideal) (E1 m c) :=
  (W5_of_ne m ρ c main_v27 (by decide)).trans (coef_at4 m ρ c)
theorem qcol_at5 : W5 m ρ c (Proc.devRef .tc main_v12) = qcolOf (E1 m c) :=
  (W5_of_ne m ρ c main_v12 (by decide)).trans (qcol_at4 m ρ c)
theorem arg5_at5 : W5 m ρ c (Proc.devRef .tc main_arg5) = X5 m c :=
  (W5_of_ne m ρ c main_arg5 (by decide)).trans (arg5_at4 m ρ c)

/-! ## After the second aggregation (entering the second epilogue) -/

theorem h2_at6 : W6 m ρ c (Proc.devRef .tc main_v43)
    = dense2 (layer1 (dense1 (X0 m c) (X2 m c)) (aggr16 (dense1 (X0 m c) (X2 m c)) (E1 m c)) (normSq (E1 m c)) (X3 m c)) (X4 m c) := by
  refine Eq.trans ?_ (h2_at5 m ρ c)
  show StableHlo.after hostOps3 (W5 m ρ c) (Proc.devRef .tc main_v43) = _
  host_keeps hostOps3
theorem qcol_at6 : W6 m ρ c (Proc.devRef .tc main_v12) = qcolOf (E1 m c) := by
  refine Eq.trans ?_ (qcol_at5 m ρ c)
  show StableHlo.after hostOps3 (W5 m ρ c) (Proc.devRef .tc main_v12) = _
  host_keeps hostOps3
theorem arg5_at6 : W6 m ρ c (Proc.devRef .tc main_arg5) = X5 m c := by
  refine Eq.trans ?_ (arg5_at5 m ρ c)
  show StableHlo.after hostOps3 (W5 m ρ c) (Proc.devRef .tc main_arg5) = _
  host_keeps hostOps3

set_option maxHeartbeats 4000000 in
/-- The second layer's edge aggregation. -/
theorem agg2_at6 : W6 m ρ c (Proc.devRef .tc main_v56)
    = aggr10 (dense2 (layer1 (dense1 (X0 m c) (X2 m c)) (aggr16 (dense1 (X0 m c) (X2 m c)) (E1 m c)) (normSq (E1 m c)) (X3 m c)) (X4 m c)) (E1 m c) := by
  show StableHlo.after hostOps3 (W5 m ρ c) (Proc.devRef .tc main_v56) = _
  after_results_simp
  rw [h2_at5 m ρ c, src_at5 m ρ c, dst_at5 m ρ c, coef_at5 m ρ c]
  rfl

/-! ## After the second epilogue: the result -/

/-- The result array ends at the reference's last stage of the launched arguments. -/
theorem result_at7 : W7 m ρ c (Proc.devRef .tc main_v57)
    = Cert.ReferenceIdeal.Read.val_main_v103 (F := Ideal) (X0 m c) (E1 m c) (X2 m c) (X3 m c) (X4 m c) (X5 m c) := by
  rw [Cert.GcnSpec.result_eq]
  exact (W7_arr m ρ c 4).trans (Cert.KernelIdeal.Tiles.region3_value (V6 m ρ) c _ _ _ _ _
    (h2_at6 m ρ c) (agg2_at6 m ρ c) (qcol_at6 m ρ c) (arg5_at6 m ρ c) (qcolOf_apply (E1 m c)))

end Cert.KernelIdeal.Walk

end
-- ==== Proof.lean ====
/-
  The kernel — a two-layer graph convolution whose two dense products and two fused epilogues (self-loop term, bias,
  clamp at zero; self-loop term, bias, row softmax) run as tiled regions of 2000 rows, with the edge gather, scaling
  and scatter-add between them left to the host — against the reference that computes every stage on whole arrays.

  Over the extended reals the two programs are one function of the arguments, stage by stage: a product of a band of
  rows with the whole weight is that band of the whole product (the contracted axis is never cut); the epilogues act
  row by row, so a tile's rows are the array's rows; and the host operations between the regions are the reference's
  own, applied to equal operands. No algebraic law beyond this re-tiling is used, so the inputs' finiteness is never
  opened. The run of the kernel's program is the generated frame's launch with the result buffer named; the
  reference's run and its stage functions are the generated ones. The idealization rewrote no operation, so that
  conjunct holds trivially.
-/
import proofs.«429038_j39127152067222_3_alg».proof.Defs
import proofs.«429038_j39127152067222_3_alg».proof.Proof.Gen.Kernel
import proofs.«429038_j39127152067222_3_alg».proof.Proof.Gen.Kernel.Skeleton
import proofs.«429038_j39127152067222_3_alg».proof.Proof.Gen.Kernel.Launch
import proofs.«429038_j39127152067222_3_alg».proof.Proof.Gen.Kernel.Points
import proofs.«429038_j39127152067222_3_alg».proof.Proof.Gen.Kernel.Frame
import proofs.«429038_j39127152067222_3_alg».proof.Proof.Gen.KernelIdeal
import proofs.«429038_j39127152067222_3_alg».proof.Proof.Gen.KernelIdeal.Skeleton
import proofs.«429038_j39127152067222_3_alg».proof.Proof.Gen.KernelIdeal.Launch
import proofs.«429038_j39127152067222_3_alg».proof.Proof.Gen.KernelIdeal.Points
import proofs.«429038_j39127152067222_3_alg».proof.Proof.Gen.KernelIdeal.Frame
import proofs.«429038_j39127152067222_3_alg».proof.Proof.Gen.ReferenceIdeal
import proofs.«429038_j39127152067222_3_alg».proof.Proof.Gen.ReferenceIdeal.Run
import proofs.«429038_j39127152067222_3_alg».proof.Proof.Gen.ReferenceIdeal.Read
import proofs.«429038_j39127152067222_3_alg».proof.Proof.Gen.Pre_finite_inputs
import proofs.«429038_j39127152067222_3_alg».proof.Proof.KernelRun
import proofs.«429038_j39127152067222_3_alg».proof.Proof.Walk
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the reference's last stage function of the launched arguments. -/
theorem algebraic : Cert.algebraic_KernelIdeal_ReferenceIdeal := by
  intro m ρ m' ρ' _ hagree
  refine ⟨fun c => Cert.ReferenceIdeal.Read.val_main_v103 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Walk.result_at7 m ρ c), (h c).2⟩)
      (Cert.KernelIdeal.Gen.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v103_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
